-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S3200000 : Shape := ⟨1, ![3200000]⟩
abbrev S512x16 : Shape := ⟨2, ![512, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : IVec S3200000 32) (main_v32 : IVec S_ 1) (main_c_12 : IVec S_ 32) : IVec S_ 1 :=
  let main_v33 : IVec S3200000 32 := broadcastInDim S3200000 ![] bcast_S_S3200000 main_c_12
  let main_v34 : IVec S3200000 1 := cmpi .slt main_arg7 main_v33
  let main_c_13 : IVec S_ 1 := constantI S_ 1 1#1
  let main_v35 : IVec S_ 1 := (fun x v => Host.reduce IntOp.andi x v reducesTo_S3200000_S_d0 h_S_) main_v34 main_c_13
  let main_v36 : IVec S_ 1 := andi main_v32 main_v35
  main_v36

def fn_part1 {F : FTy → Type} [FloatOps F] (main_arg4 : FVec F S16x1 .f32) (main_arg5 : FVec F S1 .f32) (main_arg7 : IVec S3200000 32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x1 .f32 := Host.absf main_arg4
  let main_cst_6 : FVec F S_ .f32 := constant S_ .f32 0x7F800000#32
  let main_v20 : FVec F S16x1 .f32 := broadcastInDim S16x1 ![] bcast_S_S16x1 main_cst_6
  let main_v21 : IVec S16x1 1 := cmpf .olt main_v19 main_v20
  let main_c_7 : IVec S_ 1 := constantI S_ 1 1#1
  let main_v22 : IVec S_ 1 := (fun x v => Host.reduce IntOp.andi x v reducesTo_S16x1_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_c_10 : IVec S_ 32 := constantI S_ 32 4294867296#32
  let main_v29 : IVec S3200000 32 := broadcastInDim S3200000 ![] bcast_S_S3200000 main_c_10
  let main_v30 : IVec S3200000 1 := cmpi .sge main_arg7 main_v29
  let main_c_11 : IVec S_ 1 := constantI S_ 1 1#1
  let main_v31 : IVec S_ 1 := (fun x v => Host.reduce IntOp.andi x v reducesTo_S3200000_S_d0 h_S_) main_v30 main_c_11
  let main_v32 : IVec S_ 1 := andi main_v28 main_v31
  let main_c_12 : IVec S_ 32 := constantI S_ 32 100000#32
  fn_part2 (F := F) main_arg7 main_v32 main_c_12

def fn {F : FTy → Type} [FloatOps F] (main_arg0 : FVec F S100000x512 .f32) (main_arg1 : FVec F S3200000 .f32) (main_arg2 : FVec F S512x16 .f32) (main_arg3 : FVec F S16 .f32) (main_arg4 : FVec F S16x1 .f32) (main_arg5 : FVec F S1 .f32) (main_arg6 : IVec S3200000 32) (main_arg7 : IVec S3200000 32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S3200000 .f32 := Host.absf main_arg1
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S512x16 .f32 := Host.absf main_arg2
  let main_cst_2 : FVec F S_ .f32 := constant S_ .f32 0x7F800000#32
  let main_v10 : FVec F S512x16 .f32 := broadcastInDim S512x16 ![] bcast_S_S512x16 main_cst_2
  let main_v11 : IVec S512x16 1 := cmpf .olt main_v9 main_v10
  let main_c_3 : IVec S_ 1 := constantI S_ 1 1#1
  let main_v12 : IVec S_ 1 := (fun x v => Host.reduce IntOp.andi x v reducesTo_S512x16_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_arg5 main_arg7 main_v13 main_v16
-- ==== Kernel.lean ====
abbrev S100000x512 : Shape := ⟨2, ![100000, 512]⟩
abbrev S3200000 : Shape := ⟨1, ![3200000]⟩
abbrev S512x16 : Shape := ⟨2, ![512, 16]⟩
abbrev S16 : Shape := ⟨1, ![16]⟩
abbrev S16x1 : Shape := ⟨2, ![16, 1]⟩
abbrev S1 : Shape := ⟨1, ![1]⟩
abbrev S100000x16 : Shape := ⟨2, ![100000, 16]⟩
abbrev S4000x512 : Shape := ⟨2, ![4000, 512]⟩
abbrev S4000x16 : Shape := ⟨2, ![4000, 16]⟩
abbrev S_ : Shape := ⟨0, ![]⟩
abbrev S3200000x1 : Shape := ⟨2, ![3200000, 1]⟩
abbrev S1x1 : Shape := ⟨2, ![1, 1]⟩
abbrev S3200000x16 : Shape := ⟨2, ![3200000, 16]⟩
abbrev S1x16 : Shape := ⟨2, ![1, 16]⟩
abbrev S100000x1 : Shape := ⟨2, ![100000, 1]⟩
abbrev S4000x1 : Shape := ⟨2, ![4000, 1]⟩

abbrev nBuf : Space → Nat
  | .hbm => 72
  | .vmem => 16
  | .smem => 0
  | _ => 0

abbrev bufTy : (tb : Table) → Fin (tcTables nBuf tb) → BufTy
  | .hbm, ⟨0, _⟩ => ⟨S100000x512, .f32⟩
  | .hbm, ⟨1, _⟩ => ⟨S3200000, .f32⟩
  | .hbm, ⟨2, _⟩ => ⟨S512x16, .f32⟩
  | .hbm, ⟨3, _⟩ => ⟨S16, .f32⟩
  | .hbm, ⟨4, _⟩ => ⟨S16x1, .f32⟩
  | .hbm, ⟨5, _⟩ => ⟨S1, .f32⟩
  | .hbm, ⟨6, _⟩ => ⟨S3200000, .i32⟩
  | .hbm, ⟨7, _⟩ => ⟨S3200000, .i32⟩
  | .hbm, ⟨8, _⟩ => ⟨S100000x16, .f32⟩
  | .hbm, ⟨9, _⟩ => ⟨S_, .i32⟩
  | .hbm, ⟨10, _⟩ => ⟨S3200000, .i32⟩
  | .hbm, ⟨11, _⟩ => ⟨S3200000, .i1⟩
  | .hbm, ⟨12, _⟩ => ⟨S_, .i32⟩
  | .hbm, ⟨13, _⟩ => ⟨S3200000, .i32⟩
  | .hbm, ⟨14, _⟩ => ⟨S3200000, .i32⟩
  | .hbm, ⟨15, _⟩ => ⟨S3200000, .i32⟩
  | .hbm, ⟨16, _⟩ => ⟨S3200000x1, .i32⟩
  | .hbm, ⟨17, _⟩ => ⟨S1, .i32⟩
  | .hbm, ⟨18, _⟩ => ⟨S_, .i32⟩
  | .hbm, ⟨19, _⟩ => ⟨S3200000x1, .i32⟩
  | .hbm, ⟨20, _⟩ => ⟨S3200000x1, .i1⟩
  | .hbm, ⟨21, _⟩ => ⟨S1x1, .i32⟩
  | .hbm, ⟨22, _⟩ => ⟨S3200000x1, .i32⟩
  | .hbm, ⟨23, _⟩ => ⟨S3200000x1, .i1⟩
  | .hbm, ⟨24, _⟩ => ⟨S3200000x1, .i1⟩
  | .hbm, ⟨25, _⟩ => ⟨S_, .i1⟩
  | .hbm, ⟨26, _⟩ => ⟨S3200000, .i1⟩
  | .hbm, ⟨27, _⟩ => ⟨S3200000x16, .f32⟩
  | .hbm, ⟨28, _⟩ => ⟨S3200000x16, .i1⟩
  | .hbm, ⟨29, _⟩ => ⟨S_, .f32⟩
  | .hbm, ⟨30, _⟩ => ⟨S3200000x16, .f32⟩
  | .hbm, ⟨31, _⟩ => ⟨S3200000x16, .f32⟩
  | .hbm, ⟨32, _⟩ => ⟨S3200000x1, .f32⟩
  | .hbm, ⟨33, _⟩ => ⟨S3200000x16, .f32⟩
  | .hbm, ⟨34, _⟩ => ⟨S3200000x16, .f32⟩
  | .hbm, ⟨35, _⟩ => ⟨S_, .f32⟩
  | .hbm, ⟨36, _⟩ => ⟨S100000x16, .f32⟩
  | .hbm, ⟨37, _⟩ => ⟨S3200000x1, .i32⟩
  | .hbm, ⟨38, _⟩ => ⟨S100000x16, .f32⟩
  | .hbm, ⟨39, _⟩ => ⟨S1x16, .f32⟩
  | .hbm, ⟨40, _⟩ => ⟨S100000x1, .f32⟩
  | .hbm, ⟨41, _⟩ => ⟨S_, .i32⟩
  | .hbm, ⟨42, _⟩ => ⟨S3200000, .i32⟩
  | .hbm, ⟨43, _⟩ => ⟨S3200000, .i1⟩
  | .hbm, ⟨44, _⟩ => ⟨S_, .i32⟩
  | .hbm, ⟨45, _⟩ => ⟨S3200000, .i32⟩
  | .hbm, ⟨46, _⟩ => ⟨S3200000, .i32⟩
  | .hbm, ⟨47, _⟩ => ⟨S3200000, .i32⟩
  | .hbm, ⟨48, _⟩ => ⟨S3200000x1, .i32⟩
  | .hbm, ⟨49, _⟩ => ⟨S1, .i32⟩
  | .hbm, ⟨50, _⟩ => ⟨S_, .i32⟩
  | .hbm, ⟨51, _⟩ => ⟨S3200000x1, .i32⟩
  | .hbm, ⟨52, _⟩ => ⟨S3200000x1, .i1⟩
  | .hbm, ⟨53, _⟩ => ⟨S1x1, .i32⟩
  | .hbm, ⟨54, _⟩ => ⟨S3200000x1, .i32⟩
  | .hbm, ⟨55, _⟩ => ⟨S3200000x1, .i1⟩
  | .hbm, ⟨56, _⟩ => ⟨S3200000x1, .i1⟩
  | .hbm, ⟨57, _⟩ => ⟨S_, .i1⟩
  | .hbm, ⟨58, _⟩ => ⟨S3200000, .i1⟩
  | .hbm, ⟨59, _⟩ => ⟨S3200000x1, .f32⟩
  | .hbm, ⟨60, _⟩ => ⟨S3200000x1, .i1⟩
  | .hbm, ⟨61, _⟩ => ⟨S_, .f32⟩
  | .hbm, ⟨62, _⟩ => ⟨S3200000x1, .f32⟩
  | .hbm, ⟨63, _⟩ => ⟨S3200000x1, .f32⟩
  | .hbm, ⟨64, _⟩ => ⟨S3200000x1, .f32⟩
  | .hbm, ⟨65, _⟩ => ⟨S3200000x1, .f32⟩
  | .hbm, ⟨66, _⟩ => ⟨S_, .f32⟩
  | .hbm, ⟨67, _⟩ => ⟨S100000x1, .f32⟩
  | .hbm, ⟨68, _⟩ => ⟨S3200000x1, .i32⟩
  | .hbm, ⟨69, _⟩ => ⟨S100000x1, .f32⟩
  | .hbm, ⟨70, _⟩ => ⟨S1x1, .f32⟩
  | .hbm, ⟨71, _⟩ => ⟨S100000x1, .f32⟩
  | .local _ .vmem, ⟨0, _⟩ => ⟨S4000x512, .f32⟩
  | .local _ .vmem, ⟨1, _⟩ => ⟨S4000x512, .f32⟩
  | .local _ .vmem, ⟨2, _⟩ => ⟨S512x16, .f32⟩
  | .local _ .vmem, ⟨3, _⟩ => ⟨S4000x16, .f32⟩
  | .local _ .vmem, ⟨4, _⟩ => ⟨S4000x16, .f32⟩
  | .local _ .vmem, ⟨5, _⟩ => ⟨S4000x16, .f32⟩
  | .local _ .vmem, ⟨6, _⟩ => ⟨S4000x16, .f32⟩
  | .local _ .vmem, ⟨7, _⟩ => ⟨S1x16, .f32⟩
  | .local _ .vmem, ⟨8, _⟩ => ⟨S16x1, .f32⟩
  | .local _ .vmem, ⟨9, _⟩ => ⟨S4000x1, .f32⟩
  | .local _ .vmem, ⟨10, _⟩ => ⟨S4000x1, .f32⟩
  | .local _ .vmem, ⟨11, _⟩ => ⟨S4000x1, .f32⟩
  | .local _ .vmem, ⟨12, _⟩ => ⟨S4000x1, .f32⟩
  | .local _ .vmem, ⟨13, _⟩ => ⟨S1x1, .f32⟩
  | .local _ .vmem, ⟨14, _⟩ => ⟨S4000x1, .f32⟩
  | .local _ .vmem, ⟨15, _⟩ => ⟨S4000x1, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_cst : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_call1_c : Ref sig .tc := ⟨.hbm, 41, rfl⟩
abbrev main_call1_v0 : Ref sig .tc := ⟨.hbm, 42, rfl⟩
abbrev main_call1_v1 : Ref sig .tc := ⟨.hbm, 43, rfl⟩
abbrev main_call1_c_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_c_1 : Ref sig .tc := ⟨.hbm, 49, rfl⟩
abbrev main_call1_c_2 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_3 : Ref sig .tc := ⟨.hbm, 57, rfl⟩
abbrev main_call1_v12 : Ref sig .tc := ⟨.hbm, 58, rfl⟩
abbrev main_call1_v13 : Ref sig .tc := ⟨.hbm, 59, rfl⟩
abbrev main_call1_v14 : Ref sig .tc := ⟨.hbm, 60, rfl⟩
abbrev main_call1_cst : Ref sig .tc := ⟨.hbm, 61, rfl⟩
abbrev main_call1_v15 : Ref sig .tc := ⟨.hbm, 62, rfl⟩
abbrev main_v10 : Ref sig .tc := ⟨.hbm, 63, rfl⟩
abbrev main_v11 : Ref sig .tc := ⟨.hbm, 64, rfl⟩
abbrev main_v12 : Ref sig .tc := ⟨.hbm, 65, rfl⟩
abbrev main_cst_0 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x1 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  inb_S4000x512_S4000x512_0_0 : ∀ a, (![0, 0] : Fin 2 → Nat) a + S4000x512.size a ≤ S4000x512.size a
  h_S4000x512 : 0 < S4000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S4000x16_S4000x16_0_0 : ∀ a, (![0, 0] : Fin 2 → Nat) a + S4000x16.size a ≤ S4000x16.size a
  h_S4000x16 : 0 < S4000x16.numel
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S3200000x1 : S_.BroadcastsInDim S3200000x1 (![] : Fin 0 → Fin S3200000x1.rank)
  bcast_S1_S1x1_1 : S1.BroadcastsInDim S1x1 (![1] : Fin 1 → Fin S1x1.rank)
  bcast_S1x1_S3200000x1_0_1 : S1x1.BroadcastsInDim S3200000x1 (![0, 1] : Fin 2 → Fin S3200000x1.rank)
  reducesTo_S3200000x1_S3200000_d1 : S3200000x1.ReducesTo [1] S3200000
  h_S_ : 0 < S_.numel
  bcast_S3200000_S3200000x16_0 : S3200000.BroadcastsInDim S3200000x16 (![0] : Fin 1 → Fin S3200000x16.rank)
  bcast_S_S3200000x16 : S_.BroadcastsInDim S3200000x16 (![] : Fin 0 → Fin S3200000x16.rank)
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  shapeCasts_S16_S1x16 : S16.ShapeCasts S1x16
  shapeCasts_S4000x16_S4000x16 : S4000x16.ShapeCasts S4000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4000x16 : S1x16.Broadcasts S4000x16
  inb_S16x1_S16x1_0_0 : ∀ a, (![0, 0] : Fin 2 → Nat) a + S16x1.size a ≤ S16x1.size a
  h_S16x1 : 0 < S16x1.numel
  inb_S4000x1_S4000x1_0_0 : ∀ a, (![0, 0] : Fin 2 → Nat) a + S4000x1.size a ≤ S4000x1.size a
  h_S4000x1 : 0 < S4000x1.numel
  bcast_S_S100000x1 : S_.BroadcastsInDim S100000x1 (![] : Fin 0 → Fin S100000x1.rank)
  shapeCasts_S1_S1x1 : S1.ShapeCasts S1x1
  shapeCasts_S4000x1_S4000x1 : S4000x1.ShapeCasts S4000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  dot_S4000x512_S512x16_S4000x16_1_0_0_1_n_n_wf : DotDims.WF S4000x512 S512x16 S4000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S4000x16_S16x1_S4000x1_1_0_0_1_n_n_wf : DotDims.WF S4000x16 S16x1 S4000x1 [1] [0] [0] [1] [] []
  gather_S100000x1_S3200000x1_S3200000x1_1_0_n_n_0_1_11_wf : GatherDims.WF S100000x1 S3200000x1 S3200000x1 [1] [0] [] [0] [] 1 ![1, 1]
  scatter_S100000x1_S3200000x1_S3200000x1_1_0_0_1_wf : ScatterDims.WF S100000x1 S3200000x1 S3200000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x16.size a ≤ S100000x16.size a
  hwx0_2 : ∀ i : grid0.Coords, EltTy.bits .f32 = 32 ∨ (Rect.block (s := S100000x16) S4000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x16.size a ≤ S100000x16.size a
  hwx1_0 : ∀ i : grid1.Coords, EltTy.bits .f32 = 32 ∨ (Rect.block (s := S100000x16) S4000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x1.size a ≤ S16x1.size a
  hwx1_2 : ∀ i : grid1.Coords, EltTy.bits .f32 = 32 ∨ (Rect.block (s := S16x1) S16x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x1.size a ≤ S100000x1.size a
  hwx1_3 : ∀ i : grid1.Coords, EltTy.bits .f32 = 32 ∨ (Rect.block (s := S100000x1) S4000x1.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x1.size a ≤ S100000x1.size a
  hwx2_0 : ∀ i : grid2.Coords, EltTy.bits .f32 = 32 ∨ (Rect.block (s := S100000x1) S4000x1.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x1.size a ≤ S1x1.size a
  hwx2_1 : ∀ i : grid2.Coords, EltTy.bits .f32 = 32 ∨ (Rect.block (s := S1x1) S1x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x1.size a ≤ S100000x1.size a
  hwx2_2 : ∀ i : grid2.Coords, EltTy.bits .f32 = 32 ∨ (Rect.block (s := S100000x1) S4000x1.size (cc2_transform_2 i) (hinb2_2 i)).WholeWords (EltTy.packing .f32)

variable [Facts₀]

def dot_S4000x512_S512x16_S4000x16_1_0_0_1_n_n : DotDims S4000x512 S512x16 S4000x16 where
  lhsContracting := [1]
  rhsContracting := [0]
  lhsNonContracting := [0]
  rhsNonContracting := [1]
  lhsBatch := []
  rhsBatch := []
  wf := dot_S4000x512_S512x16_S4000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S4000x16_S16x1_S4000x1_1_0_0_1_n_n : DotDims S4000x16 S16x1 S4000x1 where
  lhsContracting := [1]
  rhsContracting := [0]
  lhsNonContracting := [0]
  rhsNonContracting := [1]
  lhsBatch := []
  rhsBatch := []
  wf := dot_S4000x16_S16x1_S4000x1_1_0_0_1_n_n_wf
def gather_S100000x1_S3200000x1_S3200000x1_1_0_n_n_0_1_11 : GatherDims S100000x1 S3200000x1 S3200000x1 where
  offsetDims := [1]
  collapsedSliceDims := [0]
  operandBatchingDims := []
  startIndicesBatchingDims := []
  startIndexMap := [0]
  indexVectorDim := 1
  sliceSizes := ![1, 1]
  wf := gather_S100000x1_S3200000x1_S3200000x1_1_0_n_n_0_1_11_wf
def scatter_S100000x1_S3200000x1_S3200000x1_1_0_0_1 : ScatterDims S100000x1 S3200000x1 S3200000x1 where
  updateWindowDims := [1]
  insertedWindowDims := [0]
  scatterDimsToOperandDims := [0]
  indexVectorDim := 1
  wf := scatter_S100000x1_S3200000x1_S3200000x1_1_0_0_1_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v7) S4000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S16x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S4000x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v15) S4000x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S1x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v17) S4000x1.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x512 : Shape := ⟨2, ![100000, 512]⟩
abbrev S3200000 : Shape := ⟨1, ![3200000]⟩
abbrev S512x16 : Shape := ⟨2, ![512, 16]⟩
abbrev S16 : Shape := ⟨1, ![16]⟩
abbrev S16x1 : Shape := ⟨2, ![16, 1]⟩
abbrev S1 : Shape := ⟨1, ![1]⟩
abbrev S100000x16 : Shape := ⟨2, ![100000, 16]⟩
abbrev S3200000x1 : Shape := ⟨2, ![3200000, 1]⟩
abbrev S_ : Shape := ⟨0, ![]⟩
abbrev S3200000x16 : Shape := ⟨2, ![3200000, 16]⟩
abbrev S1x16 : Shape := ⟨2, ![1, 16]⟩
abbrev S100000x1 : Shape := ⟨2, ![100000, 1]⟩
abbrev S1x1 : Shape := ⟨2, ![1, 1]⟩

abbrev nBuf : Space → Nat
  | .hbm => 58
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S3200000, .f32⟩
  | .hbm, ⟨2, _⟩ => ⟨S512x16, .f32⟩
  | .hbm, ⟨3, _⟩ => ⟨S16, .f32⟩
  | .hbm, ⟨4, _⟩ => ⟨S16x1, .f32⟩
  | .hbm, ⟨5, _⟩ => ⟨S1, .f32⟩
  | .hbm, ⟨6, _⟩ => ⟨S3200000, .i32⟩
  | .hbm, ⟨7, _⟩ => ⟨S3200000, .i32⟩
  | .hbm, ⟨8, _⟩ => ⟨S100000x16, .f32⟩
  | .hbm, ⟨9, _⟩ => ⟨S3200000x1, .f32⟩
  | .hbm, ⟨10, _⟩ => ⟨S_, .i32⟩
  | .hbm, ⟨11, _⟩ => ⟨S3200000, .i32⟩
  | .hbm, ⟨12, _⟩ => ⟨S3200000, .i1⟩
  | .hbm, ⟨13, _⟩ => ⟨S_, .i32⟩
  | .hbm, ⟨14, _⟩ => ⟨S3200000, .i32⟩
  | .hbm, ⟨15, _⟩ => ⟨S3200000, .i32⟩
  | .hbm, ⟨16, _⟩ => ⟨S3200000, .i32⟩
  | .hbm, ⟨17, _⟩ => ⟨S3200000x1, .i32⟩
  | .hbm, ⟨18, _⟩ => ⟨S3200000x16, .f32⟩
  | .hbm, ⟨19, _⟩ => ⟨S3200000x16, .f32⟩
  | .hbm, ⟨20, _⟩ => ⟨S3200000x16, .f32⟩
  | .hbm, ⟨21, _⟩ => ⟨S_, .f32⟩
  | .hbm, ⟨22, _⟩ => ⟨S100000x16, .f32⟩
  | .hbm, ⟨23, _⟩ => ⟨S3200000x1, .i32⟩
  | .hbm, ⟨24, _⟩ => ⟨S100000x16, .f32⟩
  | .hbm, ⟨25, _⟩ => ⟨S1x16, .f32⟩
  | .hbm, ⟨26, _⟩ => ⟨S100000x16, .f32⟩
  | .hbm, ⟨27, _⟩ => ⟨S100000x16, .f32⟩
  | .hbm, ⟨28, _⟩ => ⟨S_, .f32⟩
  | .hbm, ⟨29, _⟩ => ⟨S100000x16, .f32⟩
  | .hbm, ⟨30, _⟩ => ⟨S100000x16, .f32⟩
  | .hbm, ⟨31, _⟩ => ⟨S100000x1, .f32⟩
  | .hbm, ⟨32, _⟩ => ⟨S3200000x1, .f32⟩
  | .hbm, ⟨33, _⟩ => ⟨S_, .i32⟩
  | .hbm, ⟨34, _⟩ => ⟨S3200000, .i32⟩
  | .hbm, ⟨35, _⟩ => ⟨S3200000, .i1⟩
  | .hbm, ⟨36, _⟩ => ⟨S_, .i32⟩
  | .hbm, ⟨37, _⟩ => ⟨S3200000, .i32⟩
  | .hbm, ⟨38, _⟩ => ⟨S3200000, .i32⟩
  | .hbm, ⟨39, _⟩ => ⟨S3200000, .i32⟩
  | .hbm, ⟨40, _⟩ => ⟨S3200000x1, .i32⟩
  | .hbm, ⟨41, _⟩ => ⟨S3200000x1, .f32⟩
  | .hbm, ⟨42, _⟩ => ⟨S3200000x1, .f32⟩
  | .hbm, ⟨43, _⟩ => ⟨S_, .f32⟩
  | .hbm, ⟨44, _⟩ => ⟨S100000x1, .f32⟩
  | .hbm, ⟨45, _⟩ => ⟨S3200000x1, .i32⟩
  | .hbm, ⟨46, _⟩ => ⟨S100000x1, .f32⟩
  | .hbm, ⟨47, _⟩ => ⟨S1x1, .f32⟩
  | .hbm, ⟨48, _⟩ => ⟨S100000x1, .f32⟩
  | .hbm, ⟨49, _⟩ => ⟨S100000x1, .f32⟩
  | .hbm, ⟨50, _⟩ => ⟨S100000x1, .f32⟩
  | .hbm, ⟨51, _⟩ => ⟨S100000x1, .f32⟩
  | .hbm, ⟨52, _⟩ => ⟨S_, .f32⟩
  | .hbm, ⟨53, _⟩ => ⟨S100000x1, .f32⟩
  | .hbm, ⟨54, _⟩ => ⟨S100000x1, .f32⟩
  | .hbm, ⟨55, _⟩ => ⟨S_, .f32⟩
  | .hbm, ⟨56, _⟩ => ⟨S100000x1, .f32⟩
  | .hbm, ⟨57, _⟩ => ⟨S100000x1, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_cst : Ref sig .tc := ⟨.hbm, 28, rfl⟩
abbrev main_call0_v0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_1 : Ref sig .tc := ⟨.hbm, 33, rfl⟩
abbrev main_v20 : Ref sig .tc := ⟨.hbm, 34, rfl⟩
abbrev main_v21 : Ref sig .tc := ⟨.hbm, 35, rfl⟩
abbrev main_c_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_4 : Ref sig .tc := ⟨.hbm, 52, rfl⟩
abbrev main_v36 : Ref sig .tc := ⟨.hbm, 53, rfl⟩
abbrev main_v37 : Ref sig .tc := ⟨.hbm, 54, rfl⟩
abbrev main_cst_5 : Ref sig .tc := ⟨.hbm, 55, rfl⟩
abbrev main_v38 : Ref sig .tc := ⟨.hbm, 56, rfl⟩
abbrev main_v39 : Ref sig .tc := ⟨.hbm, 57, rfl⟩

abbrev nD : Nat := 1
abbrev τ : Topo := Topo.v7x

variable {F : FTy → Type} [FloatOps F]

class Facts₀ : Prop where
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  dot_S100000x512_S512x16_S100000x16_1_0_0_1_n_n_wf : DotDims.WF S100000x512 S512x16 S100000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S100000x16_S16x1_S100000x1_1_0_0_1_n_n_wf : DotDims.WF S100000x16 S16x1 S100000x1 [1] [0] [0] [1] [] []
  gather_S100000x1_S3200000x1_S3200000x1_1_0_n_n_0_1_11_wf : GatherDims.WF S100000x1 S3200000x1 S3200000x1 [1] [0] [] [0] [] 1 ![1, 1]
  scatter_S100000x1_S3200000x1_S3200000x1_1_0_0_1_wf : ScatterDims.WF S100000x1 S3200000x1 S3200000x1 [1] [0] [0] 1

variable [Facts₀]

def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S100000x16_S16x1_S100000x1_1_0_0_1_n_n : DotDims S100000x16 S16x1 S100000x1 where
  lhsContracting := [1]
  rhsContracting := [0]
  lhsNonContracting := [0]
  rhsNonContracting := [1]
  lhsBatch := []
  rhsBatch := []
  wf := dot_S100000x16_S16x1_S100000x1_1_0_0_1_n_n_wf
def gather_S100000x1_S3200000x1_S3200000x1_1_0_n_n_0_1_11 : GatherDims S100000x1 S3200000x1 S3200000x1 where
  offsetDims := [1]
  collapsedSliceDims := [0]
  operandBatchingDims := []
  startIndicesBatchingDims := []
  startIndexMap := [0]
  indexVectorDim := 1
  sliceSizes := ![1, 1]
  wf := gather_S100000x1_S3200000x1_S3200000x1_1_0_n_n_0_1_11_wf
def scatter_S100000x1_S3200000x1_S3200000x1_1_0_0_1 : ScatterDims S100000x1 S3200000x1 S3200000x1 where
  updateWindowDims := [1]
  insertedWindowDims := [0]
  scatterDimsToOperandDims := [0]
  indexVectorDim := 1
  wf := scatter_S100000x1_S3200000x1_S3200000x1_1_0_0_1_wf

class Facts : Prop extends Facts₀ where

variable [Facts]
-- ==== Proof.Spec.lean ====
/-
  The reference network, stage by stage, as functions of their operands.

  A two-layer graph convolution over N = 100000 nodes and E = 3200000 weighted edges (row r_e, column c_e, weight v_e):
    layer 1:  H  = relu (A · (X · W1) + b1)      X : N×512, W1 : 512×16, b1 : 16
    layer 2:  y  = sigmoid (A · (H · W2) + b2)   W2 : 16×1,  b2 : 1
  where (A · D)[i, :] = Σ_{e : r_e = i} v_e · D[c_e', :] and c_e' is c_e with a negative value wrapped once by +N.
  The gather of rows D[c_e'] and the scatter-add over r_e are kept as the host operations themselves: both programs
  apply them to the same index arrays, so nothing here ever reads them at an index.
-/
import proofs.«429532_j50895362457878_2_alg».proof.ReferenceIdeal
import Idealize.ShloMosaic.PureOps.Ideal

noncomputable section

namespace Cert.Gcn

open Idealize.ShloMosaic Cert.ReferenceIdeal

variable {F : FTy → Type} [FloatOps F] [Cert.ReferenceIdeal.Facts]
open Cert.ReferenceIdeal.Facts₀ Cert.ReferenceIdeal.Facts

/-- X · W1 : the node features times the first weight matrix. -/
def featMul (x : FVec F S100000x512 .f32) (w1 : FVec F S512x16 .f32) : FVec F S100000x16 .f32 :=
  Host.dotGeneral dot_S100000x512_S512x16_S100000x16_1_0_0_1_n_n none x w1

/-- The column indices as the gather takes them: a negative index is wrapped once by +N, then laid out as E×1. -/
def wrapCols (cols : IVec S3200000 32) : IVec S3200000x1 32 :=
  broadcastInDim S3200000x1 ![0] bcast_S3200000_S3200000x1_0
    (select (cmpi .slt cols (broadcastInDim S3200000 ![] bcast_S_S3200000 (constantI S_ 32 0#32)))
      (addi cols (broadcastInDim S3200000 ![] bcast_S_S3200000 (constantI S_ 32 100000#32))) cols)

/-- The sixteen-column aggregation from the gathered rows `g` (E×16): scale row e by v_e, add it into row r_e of zeros. -/
def scatter16 (vals : FVec F S3200000 .f32) (rows : IVec S3200000 32) (g : FVec F S3200000x16 .f32) : FVec F S100000x16 .f32 :=
  Host.scatterAdd scatter_S100000x16_S3200000x1_S3200000x16_1_0_0_1
    (broadcastInDim S100000x16 ![] bcast_S_S100000x16 (constant S_ .f32 0x00000000#32))
    (broadcastInDim S3200000x1 ![0] bcast_S3200000_S3200000x1_0 rows)
    (mulf (broadcastInDim S3200000x16 ![0, 1] bcast_S3200000x1_S3200000x16_0_1 (broadcastInDim S3200000x1 ![0] bcast_S3200000_S3200000x1_0 vals)) g)

/-- A · D for a sixteen-column D. -/
def aggregate16 (vals : FVec F S3200000 .f32) (rows cols : IVec S3200000 32) (dense : FVec F S100000x16 .f32) : FVec F S100000x16 .f32 :=
  scatter16 vals rows (Host.gather gather_S100000x16_S3200000x1_S3200000x16_1_0_n_n_0_1_116 dense (wrapCols cols))

/-- relu (P + b1) · W2 : the first layer's activation times the second weight matrix. -/
def hiddenMul (hpre : FVec F S100000x16 .f32) (b1 : FVec F S16 .f32) (w2 : FVec F S16x1 .f32) : FVec F S100000x1 .f32 :=
  Host.dotGeneral dot_S100000x16_S16x1_S100000x1_1_0_0_1_n_n none
    (maximumf (addf hpre (broadcastInDim S100000x16 ![0, 1] bcast_S1x16_S100000x16_0_1 (broadcastInDim S1x16 ![1] bcast_S16_S1x16_1 b1)))
      (broadcastInDim S100000x16 ![] bcast_S_S100000x16 (constant S_ .f32 0x00000000#32))) w2

/-- The one-column aggregation from the gathered entries `g` (E×1). -/
def scatter1 (vals : FVec F S3200000 .f32) (rows : IVec S3200000 32) (g : FVec F S3200000x1 .f32) : FVec F S100000x1 .f32 :=
  Host.scatterAdd scatter_S100000x1_S3200000x1_S3200000x1_1_0_0_1
    (broadcastInDim S100000x1 ![] bcast_S_S100000x1 (constant S_ .f32 0x00000000#32))
    (broadcastInDim S3200000x1 ![0] bcast_S3200000_S3200000x1_0 rows)
    (mulf (broadcastInDim S3200000x1 ![0] bcast_S3200000_S3200000x1_0 vals) g)

/-- A · d for a one-column d. -/
def aggregate1 (vals : FVec F S3200000 .f32) (rows cols : IVec S3200000 32) (dense : FVec F S100000x1 .f32) : FVec F S100000x1 .f32 :=
  scatter1 vals rows (Host.gather gather_S100000x1_S3200000x1_S3200000x1_1_0_n_n_0_1_11 dense (wrapCols cols))

/-- sigmoid (p + b2) = 1 / (1 + exp (-(p + b2))), entry by entry. -/
def outSigmoid (pre : FVec F S100000x1 .f32) (b2 : FVec F S1 .f32) : FVec F S100000x1 .f32 :=
  Host.divf (broadcastInDim S100000x1 ![] bcast_S_S100000x1 (constant S_ .f32 0x3F800000#32))
    (addf (broadcastInDim S100000x1 ![] bcast_S_S100000x1 (constant S_ .f32 0x3F800000#32))
      (Host.exp (Host.negf (addf pre (broadcastInDim S100000x1 ![0, 1] bcast_S1x1_S100000x1_0_1 (broadcastInDim S1x1 ![1] bcast_S1_S1x1_1 b2))))))

/-- Every column index lies in [-N, N): the range in which indexing an axis of length N is defined (a negative index
    counts from the end). -/
def ColsInRange (cols : IVec S3200000 32) : Prop :=
  ∀ e : S3200000.Idx, (-100000 : Int) ≤ (cols e).toInt ∧ (cols e).toInt < 100000

/-- The whole network. -/
def network (x : FVec F S100000x512 .f32) (vals : FVec F S3200000 .f32) (w1 : FVec F S512x16 .f32) (b1 : FVec F S16 .f32)
    (w2 : FVec F S16x1 .f32) (b2 : FVec F S1 .f32) (rows cols : IVec S3200000 32) : FVec F S100000x1 .f32 :=
  outSigmoid (aggregate1 vals rows cols (hiddenMul (aggregate16 vals rows cols (featMul x w1)) b1 w2)) b2

end Cert.Gcn

end
-- ==== Proof.TakeFill.lean ====
/-
  The kernel gathers rows with a range test: after wrapping a negative column index once by +N it tests
  0 ≤ c' ≤ N - 1 per edge, gathers row c' (the gather itself clamps), and keeps the gathered row where the test
  holds and a fill value where it fails. When every column index lies in [-N, N) the wrapped index always
  passes the test, so the selection keeps every gathered row: the result is the plain gather of the wrapped indices.
-/
import proofs.«429532_j50895362457878_2_alg».proof.Proof.Gen.KernelIdeal
import proofs.«429532_j50895362457878_2_alg».proof.Proof.Gen.ReferenceIdeal
import proofs.«429532_j50895362457878_2_alg».proof.Proof.Spec
import Idealize.ShloMosaic.Lib.ReduceAll
import Idealize.ShloMosaic.Lib.ValueIdx

noncomputable section

open Idealize.ShloMosaic Idealize.ShloMosaic.TcCoe Idealize.SL.Sem

namespace Cert.Gcn.Take
open Cert.KernelIdeal
open Cert.KernelIdeal.Facts₀ Cert.KernelIdeal.Facts
variable {F : FTy → Type} [FloatOps F]

/-- The wrapped column indices, laid out E×1. -/
def idx (cols : IVec S3200000 32) : IVec S3200000x1 32 :=
  broadcastInDim S3200000x1 ![0] bcast_S3200000_S3200000x1_0
    (select (cmpi .slt cols (broadcastInDim S3200000 ![] bcast_S_S3200000 (constantI S_ 32 0#32)))
      (addi cols (broadcastInDim S3200000 ![] bcast_S_S3200000 (constantI S_ 32 100000#32))) cols)

/-- Per edge: does the wrapped index lie in [0, N - 1]? (the conjunction over the index vector's one component) -/
def inRange (cols : IVec S3200000 32) : IVec S3200000 1 :=
  Host.reduce IntOp.andi
    (andi (cmpi .sge (idx cols) (broadcastInDim S3200000x1 ![] bcast_S_S3200000x1 (constantI S_ 32 0#32)))
      (cmpi .sle (idx cols) (broadcastInDim S3200000x1 ![0, 1] bcast_S1x1_S3200000x1_0_1 (broadcastInDim S1x1 ![1] bcast_S1_S1x1_1 (constantI S1 32 99999#32)))))
    (constantI S_ 1 1#1) reducesTo_S3200000x1_S3200000_d1 h_S_

/-- The sixteen-column take: the gathered row where the index is in range, the fill value elsewhere. -/
def takeFill16 (dense : FVec F S100000x16 .f32) (cols : IVec S3200000 32) : FVec F S3200000x16 .f32 :=
  select (broadcastInDim S3200000x16 ![0] bcast_S3200000_S3200000x16_0 (inRange cols))
    (Host.gather gather_S100000x16_S3200000x1_S3200000x16_1_0_n_n_0_1_116 dense (idx cols))
    (broadcastInDim S3200000x16 ![] bcast_S_S3200000x16 (constant S_ .f32 0x7FC00000#32))

/-- The one-column take. -/
def takeFill1 (dense : FVec F S100000x1 .f32) (cols : IVec S3200000 32) : FVec F S3200000x1 .f32 :=
  select (broadcastInDim S3200000x1 ![0] bcast_S3200000_S3200000x1_0 (inRange cols))
    (Host.gather gather_S100000x1_S3200000x1_S3200000x1_1_0_n_n_0_1_11 dense (idx cols))
    (broadcastInDim S3200000x1 ![] bcast_S_S3200000x1 (constant S_ .f32 0x7FC00000#32))

/-- A conjunction (a left fold by `and`) of one-bit words that are all 1, started at 1, is 1. -/
theorem foldl_andi_all_one {ι : Type} (f : ι → BitVec 1) (hf : ∀ n, f n = 1#1) :
    ∀ (l : List ι), l.foldl (fun r n => IntOp.andi r (f n)) 1#1 = 1#1
  | [] => rfl
  | a :: l => by
    rw [List.foldl_cons, hf a]
    exact foldl_andi_all_one f hf l

/-- An and-reduction, started at 1, of a mask that is 1 everywhere is 1 at every result index. -/
theorem reduce_andi_of_all_one {s t u : Shape} {axes : List (Fin s.rank)} (x : s.Idx → BitVec 1) (init : u.Idx → BitVec 1)
    (h : s.ReducesTo axes t) (hu : 0 < u.numel) (hx : ∀ i, x i = 1#1) (hinit : ∀ k, init k = 1#1) (j : t.Idx) :
    Host.reduce IntOp.andi x init h hu j = 1#1 := by
  rw [Host.reduce_eq_foldl, hinit]
  exact foldl_andi_all_one x hx _

/-- One column index wrapped: a negative word moves up by N = 100000, any other stays. -/
def wrapWord (c : BitVec 32) : BitVec 32 :=
  Scalar.select (IntOp.cmpi .slt c 0#32) (IntOp.addi c 100000#32) c

/-- A word in [-N, N) wraps into [0, N - 1]: a negative c goes to c + N, in [0, N); a non-negative c < N stays. -/
theorem wrapWord_range (c : BitVec 32) (hc : (-100000 : Int) ≤ c.toInt ∧ c.toInt < 100000) :
    (0 : Int) ≤ (wrapWord c).toInt ∧ (wrapWord c).toInt ≤ 99999 := by
  have h0 : (0#32 : BitVec 32).toInt = 0 := by decide
  unfold wrapWord
  by_cases hneg : c.toInt < 0
  · have hs : IntOp.cmpi .slt c 0#32 = 1#1 := IntOp.cmpi_slt.2 (by rw [h0]; exact hneg)
    rw [hs, ValueIdx.select_one]
    have hN : (100000#32 : BitVec 32).toInt = 100000 := by decide
    have ha : (IntOp.addi c 100000#32).toInt = c.toInt + 100000 := by
      show (c + 100000#32).toInt = _
      rw [BitVec.toInt_add, hN]
      exact Int.bmod_eq_of_le (by omega) (by omega)
    rw [ha]; omega
  · have hs : IntOp.cmpi .slt c 0#32 = 0#1 := by
      rcases BitVec.eq_zero_or_eq_one (IntOp.cmpi .slt c 0#32) with e | e
      · exact e
      · exact absurd (by have := IntOp.cmpi_slt.1 e; rwa [h0] at this) hneg
    rw [hs, ValueIdx.select_zero]; omega

/-- The wrapped index array at a position is the wrap of one of the column words. -/
theorem idx_apply (cols : IVec S3200000 32) (i : S3200000x1.Idx) : ∃ e : S3200000.Idx, idx cols i = wrapWord (cols e) :=
  ⟨_, rfl⟩

/-- With every column index in [-N, N) the range test passes on every edge. -/
theorem inRange_eq (cols : IVec S3200000 32) (h : Cert.Gcn.ColsInRange cols) : inRange cols = fun _ => 1#1 := by
  funext j
  unfold inRange
  refine reduce_andi_of_all_one _ _ _ _ (fun i => ?_) (fun _ => rfl) j
  obtain ⟨e, he⟩ := idx_apply cols i
  obtain ⟨h1, h2⟩ := wrapWord_range (cols e) (h e)
  show IntOp.andi (IntOp.cmpi .sge (idx cols i) 0#32) (IntOp.cmpi .sle (idx cols i) 99999#32) = 1#1
  rw [he]
  refine IntOp.andi_eq_one.2 ⟨IntOp.cmpi_sge.2 ?_, IntOp.cmpi_sle.2 ?_⟩
  · rw [show (0#32 : BitVec 32).toInt = 0 from by decide]; exact h1
  · rw [show (99999#32 : BitVec 32).toInt = 99999 from by decide]; exact h2

/-- With every column index in [-N, N) the sixteen-column take with fill is the plain gather of the wrapped indices. -/
theorem takeFill16_eq (cols : IVec S3200000 32) (h : Cert.Gcn.ColsInRange cols) (dense : FVec F S100000x16 .f32) :
    takeFill16 dense cols = Host.gather Cert.ReferenceIdeal.gather_S100000x16_S3200000x1_S3200000x16_1_0_n_n_0_1_116 dense (Cert.Gcn.wrapCols cols) := by
  funext i
  unfold takeFill16
  rw [ValueIdx.select_apply, inRange_eq cols h]
  exact ValueIdx.select_one _ _

/-- The same for the one-column take. -/
theorem takeFill1_eq (cols : IVec S3200000 32) (h : Cert.Gcn.ColsInRange cols) (dense : FVec F S100000x1 .f32) :
    takeFill1 dense cols = Host.gather Cert.ReferenceIdeal.gather_S100000x1_S3200000x1_S3200000x1_1_0_n_n_0_1_11 dense (Cert.Gcn.wrapCols cols) := by
  funext i
  unfold takeFill1
  rw [ValueIdx.select_apply, inRange_eq cols h]
  exact ValueIdx.select_one _ _

end Cert.Gcn.Take

end
-- ==== Proof.HostSide.lean ====
/-
  The host operations between the launches, read back. Between launches 0 and 1 the program takes rows of the first
  product by the column indices (with the range test), scales them by the edge weights and adds them into the rows
  named by the row indices, and reshapes the first bias to a row; between launches 1 and 2 it does the same with the
  one-column product and the second bias. Each stretch is read as one term of the buffers it starts from; no stretch
  writes an argument array.
-/
import proofs.«429532_j50895362457878_2_alg».proof.Proof.Gen.KernelIdeal.Frame
import proofs.«429532_j50895362457878_2_alg».proof.Proof.TakeFill
import Idealize.ShloMosaic.Lib.StableHlo.Run

noncomputable section

open Idealize.ShloMosaic Idealize.ShloMosaic.TcCoe Idealize.SL.Sem

namespace Cert.Gcn.Host
open Cert.KernelIdeal Cert.KernelIdeal.Gen

variable {F : FTy → Type} [FloatOps F]

/-! ## A typed reference's two transports are inverse, and at a literal buffer each is the identity -/

/-- Contents carried to a buffer's own type and back are the contents. -/
theorem ofBuf_toBuf {Val : EltTy → Type} {T : BufTy} (x : StableHlo.TRef sig T) (v : T.Contents Val) :
    x.ofBuf (x.toBuf v) = v := by
  obtain ⟨r, h, h2, h3⟩ := x
  subst h
  rfl

theorem ofBuf_cols (W : Valuation τ sig (Elt F)) :
    (StableHlo.TRef.of (sig := sig) (T := ⟨S3200000, .i32⟩) main_arg7).ofBuf (W (Proc.devRef .tc main_arg7)) = W (Proc.devRef .tc main_arg7) := rfl
theorem ofBuf_prod16 (W : Valuation τ sig (Elt F)) :
    (StableHlo.TRef.of (sig := sig) (T := ⟨S100000x16, .f32⟩) main_v0).ofBuf (W (Proc.devRef .tc main_v0)) = W (Proc.devRef .tc main_v0) := rfl
theorem toBuf_take16 (v : (⟨S3200000x16, .f32⟩ : BufTy).Contents (Elt F)) :
    (StableHlo.TRef.of (sig := sig) (T := ⟨S3200000x16, .f32⟩) main_v1).toBuf v = v := rfl
theorem ofBuf_prod1 (W : Valuation τ sig (Elt F)) :
    (StableHlo.TRef.of (sig := sig) (T := ⟨S100000x1, .f32⟩) main_v9).ofBuf (W (Proc.devRef .tc main_v9)) = W (Proc.devRef .tc main_v9) := rfl
theorem toBuf_take1 (v : (⟨S3200000x1, .f32⟩ : BufTy).Contents (Elt F)) :
    (StableHlo.TRef.of (sig := sig) (T := ⟨S3200000x1, .f32⟩) main_v10).toBuf v = v := rfl

/-! ## Each stretch from any starting contents `W` -/

set_option maxHeartbeats 1000000 in
/-- The first take: the sixteen-column range-tested gather of the first product by the column indices. -/
theorem take16_of (W : Valuation τ sig (Elt F)) :
    StableHlo.after (hostOps1 (F := F)) W (Proc.devRef .tc main_v1)
      = Cert.Gcn.Take.takeFill16 (F := F) (W (Proc.devRef .tc main_v0)) (W (Proc.devRef .tc main_arg7)) := by
  after_results_simp
  simp only [ofBuf_toBuf, ofBuf_cols, ofBuf_prod16, toBuf_take16]
  rfl

set_option maxHeartbeats 1000000 in
/-- The first aggregation: the taken rows scaled by the weights and added into the rows named by the row indices. -/
theorem agg16_of (W : Valuation τ sig (Elt F)) :
    StableHlo.after (hostOps1_1 (F := F)) W (Proc.devRef .tc main_v7)
      = Cert.Gcn.scatter16 (F := F) (W (Proc.devRef .tc main_arg1)) (W (Proc.devRef .tc main_arg6)) (W (Proc.devRef .tc main_v1)) := by
  after_results_simp <;> rfl

set_option maxHeartbeats 1000000 in
/-- The first bias as a row. -/
theorem bias16_of (W : Valuation τ sig (Elt F)) :
    StableHlo.after (hostOps1_1 (F := F)) W (Proc.devRef .tc main_v8)
      = shapeCast S1x16 (W (Proc.devRef .tc main_arg3)) Facts₀.shapeCasts_S16_S1x16 := by
  after_results_simp <;> rfl

set_option maxHeartbeats 1000000 in
/-- The second take: the one-column range-tested gather of the second product. -/
theorem take1_of (W : Valuation τ sig (Elt F)) :
    StableHlo.after (hostOps2 (F := F)) W (Proc.devRef .tc main_v10)
      = Cert.Gcn.Take.takeFill1 (F := F) (W (Proc.devRef .tc main_v9)) (W (Proc.devRef .tc main_arg7)) := by
  after_results_simp
  simp only [ofBuf_toBuf, ofBuf_cols, ofBuf_prod1, toBuf_take1]
  rfl

set_option maxHeartbeats 1000000 in
/-- The second aggregation. -/
theorem agg1_of (W : Valuation τ sig (Elt F)) :
    StableHlo.after (hostOps2_1 (F := F)) W (Proc.devRef .tc main_v15)
      = Cert.Gcn.scatter1 (F := F) (W (Proc.devRef .tc main_arg1)) (W (Proc.devRef .tc main_arg6)) (W (Proc.devRef .tc main_v10)) := by
  after_results_simp <;> rfl

set_option maxHeartbeats 1000000 in
/-- The second bias as a 1×1 array. -/
theorem bias1_of (W : Valuation τ sig (Elt F)) :
    StableHlo.after (hostOps2_1 (F := F)) W (Proc.devRef .tc main_v16)
      = shapeCast S1x1 (W (Proc.devRef .tc main_arg5)) Facts₀.shapeCasts_S1_S1x1 := by
  after_results_simp <;> rfl

/-! ## What a stretch does not write it leaves as it was -/

set_option maxHeartbeats 1000000
theorem keep_hostOps1_arg1 (W : Valuation τ sig (Elt F)) :
    StableHlo.after (hostOps1 (F := F)) W (Proc.devRef .tc main_arg1) = W (Proc.devRef .tc main_arg1) := by
  after_results_simp <;> rfl
theorem keep_hostOps1_arg3 (W : Valuation τ sig (Elt F)) :
    StableHlo.after (hostOps1 (F := F)) W (Proc.devRef .tc main_arg3) = W (Proc.devRef .tc main_arg3) := by
  after_results_simp <;> rfl
theorem keep_hostOps1_arg4 (W : Valuation τ sig (Elt F)) :
    StableHlo.after (hostOps1 (F := F)) W (Proc.devRef .tc main_arg4) = W (Proc.devRef .tc main_arg4) := by
  after_results_simp <;> rfl
theorem keep_hostOps1_arg5 (W : Valuation τ sig (Elt F)) :
    StableHlo.after (hostOps1 (F := F)) W (Proc.devRef .tc main_arg5) = W (Proc.devRef .tc main_arg5) := by
  after_results_simp <;> rfl
theorem keep_hostOps1_arg6 (W : Valuation τ sig (Elt F)) :
    StableHlo.after (hostOps1 (F := F)) W (Proc.devRef .tc main_arg6) = W (Proc.devRef .tc main_arg6) := by
  after_results_simp <;> rfl
theorem keep_hostOps1_arg7 (W : Valuation τ sig (Elt F)) :
    StableHlo.after (hostOps1 (F := F)) W (Proc.devRef .tc main_arg7) = W (Proc.devRef .tc main_arg7) := by
  after_results_simp <;> rfl
theorem keep_hostOps1_1_arg1 (W : Valuation τ sig (Elt F)) :
    StableHlo.after (hostOps1_1 (F := F)) W (Proc.devRef .tc main_arg1) = W (Proc.devRef .tc main_arg1) := by
  after_results_simp <;> rfl
theorem keep_hostOps1_1_arg4 (W : Valuation τ sig (Elt F)) :
    StableHlo.after (hostOps1_1 (F := F)) W (Proc.devRef .tc main_arg4) = W (Proc.devRef .tc main_arg4) := by
  after_results_simp <;> rfl
theorem keep_hostOps1_1_arg5 (W : Valuation τ sig (Elt F)) :
    StableHlo.after (hostOps1_1 (F := F)) W (Proc.devRef .tc main_arg5) = W (Proc.devRef .tc main_arg5) := by
  after_results_simp <;> rfl
theorem keep_hostOps1_1_arg6 (W : Valuation τ sig (Elt F)) :
    StableHlo.after (hostOps1_1 (F := F)) W (Proc.devRef .tc main_arg6) = W (Proc.devRef .tc main_arg6) := by
  after_results_simp <;> rfl
theorem keep_hostOps1_1_arg7 (W : Valuation τ sig (Elt F)) :
    StableHlo.after (hostOps1_1 (F := F)) W (Proc.devRef .tc main_arg7) = W (Proc.devRef .tc main_arg7) := by
  after_results_simp <;> rfl
theorem keep_hostOps2_arg1 (W : Valuation τ sig (Elt F)) :
    StableHlo.after (hostOps2 (F := F)) W (Proc.devRef .tc main_arg1) = W (Proc.devRef .tc main_arg1) := by
  after_results_simp <;> rfl
theorem keep_hostOps2_arg5 (W : Valuation τ sig (Elt F)) :
    StableHlo.after (hostOps2 (F := F)) W (Proc.devRef .tc main_arg5) = W (Proc.devRef .tc main_arg5) := by
  after_results_simp <;> rfl
theorem keep_hostOps2_arg6 (W : Valuation τ sig (Elt F)) :
    StableHlo.after (hostOps2 (F := F)) W (Proc.devRef .tc main_arg6) = W (Proc.devRef .tc main_arg6) := by
  after_results_simp <;> rfl

end Cert.Gcn.Host

end
-- ==== Proof.Region0.lean ====
/-
  The first launch: each of its 25 grid points multiplies a block of 4000 rows of X by the whole of W1, so the
  25 written blocks, which tile the N×16 result, are together X · W1.
-/
import proofs.«429532_j50895362457878_2_alg».proof.Proof.Gen.KernelIdeal.Frame
import proofs.«429532_j50895362457878_2_alg».proof.Proof.Gen.ReferenceIdeal
import proofs.«429532_j50895362457878_2_alg».proof.Proof.Gen.ReferenceIdeal.Read
import proofs.«429532_j50895362457878_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)

namespace Cert.Gcn.Region0
open Cert.KernelIdeal Cert.KernelIdeal.Gen
variable (V : (c : Dev nD) → (b : Ref sig .tc) → Buf (Elt Ideal) ((c : Thread nD τ).loc b))

/-- The zero offsets (0, 0), however spelt. -/
theorem hz : (![0, 0] : Fin 2 → Nat) = fun _ => 0 := funext fun a => by fin_cases a <;> rfl

/-! ## The block product's operand indices: at output (p, q) and contraction index k they are (p, k) and (k, q) -/

/-- The left operand's row is the output's row. -/
theorem lhs_blk_0 (i : S4000x16.Idx) (q : dot_S4000x512_S512x16_S4000x16_1_0_0_1_n_n.contr.Idx) :
    (dot_S4000x512_S512x16_S4000x16_1_0_0_1_n_n.lhsIdx i q 0).val = (i 0).val := by
  unfold DotDims.lhsIdx
  rw [dif_neg (show ¬(0 : Fin S4000x512.rank) ∈ dot_S4000x512_S512x16_S4000x16_1_0_0_1_n_n.lhsBatch by decide), dif_pos (show (0 : Fin S4000x512.rank) ∈ dot_S4000x512_S512x16_S4000x16_1_0_0_1_n_n.lhsNonContracting by decide)]
  rfl
/-- The left operand's column is the contraction index. -/
theorem lhs_blk_1 (i : S4000x16.Idx) (q : dot_S4000x512_S512x16_S4000x16_1_0_0_1_n_n.contr.Idx) :
    (dot_S4000x512_S512x16_S4000x16_1_0_0_1_n_n.lhsIdx i q 1).val = (q ⟨0, by decide⟩).val :=
  dot_S4000x512_S512x16_S4000x16_1_0_0_1_n_n.lhsIdx_val_of_single rfl i q
/-- The right operand's row is the contraction index. -/
theorem rhs_blk_0 (i : S4000x16.Idx) (q : dot_S4000x512_S512x16_S4000x16_1_0_0_1_n_n.contr.Idx) :
    (dot_S4000x512_S512x16_S4000x16_1_0_0_1_n_n.rhsIdx i q 0).val = (q ⟨0, by decide⟩).val :=
  dot_S4000x512_S512x16_S4000x16_1_0_0_1_n_n.rhsIdx_val_of_single rfl i q
/-- The right operand's column is the output's column. -/
theorem rhs_blk_1 (i : S4000x16.Idx) (q : dot_S4000x512_S512x16_S4000x16_1_0_0_1_n_n.contr.Idx) :
    (dot_S4000x512_S512x16_S4000x16_1_0_0_1_n_n.rhsIdx i q 1).val = (i 1).val := by
  unfold DotDims.rhsIdx
  rw [dif_neg (show ¬(1 : Fin S512x16.rank) ∈ dot_S4000x512_S512x16_S4000x16_1_0_0_1_n_n.rhsBatch by decide), dif_pos (show (1 : Fin S512x16.rank) ∈ dot_S4000x512_S512x16_S4000x16_1_0_0_1_n_n.rhsNonContracting by decide)]
  rfl

/-- What one grid point computes from its blocks x0 (4000×512) and x1 (512×16): entry (p, q) is Σ_k x0[p, k] · x1[k, q]
    (the narrowing of the operands is the identity over the extended reals, and the accumulator starts at zero). -/
theorem pay_apply (x0 : Vec Ideal S4000x512 .f32) (x1 : Vec Ideal S512x16 .f32) (p : Fin 4000) (q : Fin 16) :
    k0_pay1 (F := Ideal) x0 x1 (ValueIdx.ix2 p q) = ∑ k : Fin 512, x0 (ValueIdx.ix2 p k) * x1 (ValueIdx.ix2 k q) := by
  unfold k0_pay1
  show FloatOps.matmul dot_S4000x512_S512x16_S4000x16_1_0_0_1_n_n none _ _ (constant S4000x16 .f32 0x00000000#32) _ = _
  rw [Ideal.matmul_constant_zero_apply, ← Equiv.sum_comp (ValueIdx.contrEquiv1 dot_S4000x512_S512x16_S4000x16_1_0_0_1_n_n 512 rfl rfl).symm]
  refine Finset.sum_congr rfl fun k _ => ?_
  have hk := ValueIdx.contrEquiv1_symm_val dot_S4000x512_S512x16_S4000x16_1_0_0_1_n_n 512 rfl rfl k
  have el : dot_S4000x512_S512x16_S4000x16_1_0_0_1_n_n.lhsIdx (ValueIdx.ix2 p q) ((ValueIdx.contrEquiv1 dot_S4000x512_S512x16_S4000x16_1_0_0_1_n_n 512 rfl rfl).symm k) = ValueIdx.ix2 p k := funext fun a => Fin.ext (by
    match a with
    | ⟨0, _⟩ => exact lhs_blk_0 _ _
    | ⟨1, _⟩ => exact (lhs_blk_1 _ _).trans hk)
  have er : dot_S4000x512_S512x16_S4000x16_1_0_0_1_n_n.rhsIdx (ValueIdx.ix2 p q) ((ValueIdx.contrEquiv1 dot_S4000x512_S512x16_S4000x16_1_0_0_1_n_n 512 rfl rfl).symm k) = ValueIdx.ix2 k q := funext fun a => Fin.ext (by
    match a with
    | ⟨0, _⟩ => exact (rhs_blk_0 _ _).trans hk
    | ⟨1, _⟩ => exact rhs_blk_1 _ _)
  rw [ValueIdx.truncf_apply, ValueIdx.truncf_apply, el, er]

/-! ## The blocks: point t reads rows 4000·t … 4000·t + 3999 of X and the whole of W1, and writes the same rows of the result -/

/-- The block indices over the grid: X's row block is the result's, X's column block and both of W1's are 0, the result's
    row block is below 25 and its column block is 0. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) < 25
    ∧ win0_2.index t (1 : Fin 2) = 0 :=
  (by decide +kernel : ∀ t : Fin grid0.N, _)

/-- Every one of the 25 row blocks of the result is some point's. -/
theorem idx_onto : ∀ q : Fin 25, ∃ t : Fin cfg0.N, win0_2.index t = ![q.val, 0] :=
  (by decide +kernel : ∀ q : Fin 25, ∃ t : Fin grid0.N, win0_2.index t = ![q.val, 0])

/-- What point t writes back is block t of X · W1: entry (p, q) of the block is Σ_k X[4000·t + p, k] · W1[k, q] on both sides. -/
theorem flushed_eq (c : Dev nD) (t : Fin cfg0.N) :
    (dat0 (F := Ideal) V c).flushed 2 t = ((cfg0.win 2).blk t).view.read (Elt Ideal) (Cert.Gcn.featMul (F := Ideal) (V c main_arg0) (V c main_arg2)) := by
  show (cfg0.win 2).cut (grid0.coords t) ((dat0 V c).after 2 t) = _
  rw [after0_2]
  unfold out0_2
  rw [View.canon_unit_zero hz]
  simp only [View.ld_unit_zero (S := S4000x512) hz, View.ld_unit_zero (S := S512x16) hz]
  obtain ⟨e0, e1, e2, e3, e4, e5⟩ := idx_facts t
  funext j
  obtain ⟨p, q, rfl⟩ : ∃ (p : Fin 4000) (q : Fin 16), j = ValueIdx.ix2 p q := ⟨j 0, j 1, ValueIdx.eq_ix2 j⟩
  show k0_pay1 (F := Ideal) (iblk0 V c 0 t) (iblk0 V c 1 t) (ValueIdx.ix2 p q) = Cert.ReferenceIdeal.Read.val_main_v0 (F := Ideal) (V c main_arg0) (V c main_arg2) (((cfg0.win 2).blk t).view.emb (ValueIdx.ix2 p q))
  refine (pay_apply _ _ p q).trans ?_
  rw [Cert.ReferenceIdeal.Read.val_main_v0_apply]
  refine Finset.sum_congr rfl fun k _ => ?_
  have h0 : iblk0 V c 0 t (ValueIdx.ix2 p k) = V c main_arg0 (Cert.ReferenceIdeal.Read.lidx_main_v0 (((cfg0.win 2).blk t).view.emb (ValueIdx.ix2 p q)) k) := by
    show V c main_arg0 (((cfg0.win 0).blk t).view.emb (ValueIdx.ix2 p k)) = _
    refine congrArg _ ?_
    funext a; apply Fin.ext
    match a with
    | ⟨0, _⟩ => show win0_0.index t (0 : Fin 2) * 4000 + 1 * p.val = win0_2.index t (0 : Fin 2) * 4000 + 1 * p.val; omega
    | ⟨1, _⟩ => show win0_0.index t (1 : Fin 2) * 512 + 1 * k.val = k.val; omega
  have h1 : iblk0 V c 1 t (ValueIdx.ix2 k q) = V c main_arg2 (Cert.ReferenceIdeal.Read.ridx_main_v0 (((cfg0.win 2).blk t).view.emb (ValueIdx.ix2 p q)) k) := by
    show V c main_arg2 (((cfg0.win 1).blk t).view.emb (ValueIdx.ix2 k q)) = _
    refine congrArg _ ?_
    funext a; apply Fin.ext
    match a with
    | ⟨0, _⟩ => show win0_1.index t (0 : Fin 2) * 512 + 1 * k.val = k.val; omega
    | ⟨1, _⟩ => show win0_1.index t (1 : Fin 2) * 16 + 1 * q.val = win0_2.index t (1 : Fin 2) * 16 + 1 * q.val; omega
  rw [h0, h1]

/-- An index of the result is in point t's block iff each coordinate is in the block's range on its axis. -/
theorem mem_blk (t : Fin cfg0.N) (i : S100000x16.Idx) :
    i ∈ ((cfg0.win 2).blk t).view.set ↔ ∀ a : Fin 2, win0_2.index t a * S4000x16.size a ≤ (i a).val ∧ (i a).val < win0_2.index t a * S4000x16.size a + S4000x16.size a := by
  show i ∈ ((View.whole main_v0).slice (win0_2.rect t)).set ↔ _
  rw [View.set_slice_whole, Rect.mem_set_unit]
  exact Iff.rfl

/-- The 25 blocks tile the result: row r is in the block of the point whose row block is r / 4000. -/
theorem cover (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  obtain ⟨t, ht⟩ := idx_onto ⟨(i 0).val / 4000, by omega⟩
  have q0 : win0_2.index t (0 : Fin 2) = (i 0).val / 4000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 16 ≤ (i 1).val ∧ (i 1).val < win0_2.index t (1 : Fin 2) * 16 + 16; omega

/-- After its 25 grid points the first launch's result array is X · W1, of the arrays X and W1 held when the launch
    is entered: every block written is that block of the product, and the blocks tile the result. -/
theorem array_eq (c : Dev nD) :
    (dat0 (F := Ideal) V c).arrAt 2 cfg0.N = Cert.Gcn.featMul (F := Ideal) (V c main_arg0) (V c main_arg2) :=
  (dat0 V c).arrAt_eq_of_cover 2 (Cert.Gcn.featMul (F := Ideal) (V c main_arg0) (V c main_arg2)) (fun t _ => flushed_eq V c t) cover

end Cert.Gcn.Region0

end
-- ==== Proof.Region1.lean ====
/-
  The second launch: each grid point takes 4000 rows of the aggregated features P, adds the bias row, clamps at
  zero and multiplies by the whole of W2; the 25 written blocks tile the N×1 result relu (P + b1) · W2.
-/
import proofs.«429532_j50895362457878_2_alg».proof.Proof.Gen.KernelIdeal.Frame
import proofs.«429532_j50895362457878_2_alg».proof.Proof.Gen.ReferenceIdeal
import proofs.«429532_j50895362457878_2_alg».proof.Proof.Gen.ReferenceIdeal.Read
import proofs.«429532_j50895362457878_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)

namespace Cert.Gcn.Region1
open Cert.KernelIdeal Cert.KernelIdeal.Gen
variable (V : (c : Dev nD) → (b : Ref sig .tc) → Buf (Elt Ideal) ((c : Thread nD τ).loc b))

/-- The offsets (0, 0), however spelt. -/
theorem zero_offsets : (![0, 0] : Fin 2 → Nat) = fun _ => 0 := funext fun a => by fin_cases a <;> rfl

/-! ## The block product [4000,16] × [16,1]: which entries of its operands the entry (p, q) multiplies -/

/-- The left operand's row is the result's row. -/
theorem lhs_blk_0 (i : S4000x1.Idx) (q : dot_S4000x16_S16x1_S4000x1_1_0_0_1_n_n.contr.Idx) :
    (dot_S4000x16_S16x1_S4000x1_1_0_0_1_n_n.lhsIdx i q 0).val = (i 0).val := by
  unfold DotDims.lhsIdx
  rw [dif_neg (show ¬(0 : Fin S4000x16.rank) ∈ dot_S4000x16_S16x1_S4000x1_1_0_0_1_n_n.lhsBatch by decide), dif_pos (show (0 : Fin S4000x16.rank) ∈ dot_S4000x16_S16x1_S4000x1_1_0_0_1_n_n.lhsNonContracting by decide)]
  rfl
/-- The left operand's column is the summation index. -/
theorem lhs_blk_1 (i : S4000x1.Idx) (q : dot_S4000x16_S16x1_S4000x1_1_0_0_1_n_n.contr.Idx) :
    (dot_S4000x16_S16x1_S4000x1_1_0_0_1_n_n.lhsIdx i q 1).val = (q ⟨0, by decide⟩).val :=
  dot_S4000x16_S16x1_S4000x1_1_0_0_1_n_n.lhsIdx_val_of_single rfl i q
/-- The right operand's row is the summation index. -/
theorem rhs_blk_0 (i : S4000x1.Idx) (q : dot_S4000x16_S16x1_S4000x1_1_0_0_1_n_n.contr.Idx) :
    (dot_S4000x16_S16x1_S4000x1_1_0_0_1_n_n.rhsIdx i q 0).val = (q ⟨0, by decide⟩).val :=
  dot_S4000x16_S16x1_S4000x1_1_0_0_1_n_n.rhsIdx_val_of_single rfl i q
/-- The right operand's column is the result's column. -/
theorem rhs_blk_1 (i : S4000x1.Idx) (q : dot_S4000x16_S16x1_S4000x1_1_0_0_1_n_n.contr.Idx) :
    (dot_S4000x16_S16x1_S4000x1_1_0_0_1_n_n.rhsIdx i q 1).val = (i 1).val := by
  unfold DotDims.rhsIdx
  rw [dif_neg (show ¬(1 : Fin S16x1.rank) ∈ dot_S4000x16_S16x1_S4000x1_1_0_0_1_n_n.rhsBatch by decide), dif_pos (show (1 : Fin S16x1.rank) ∈ dot_S4000x16_S16x1_S4000x1_1_0_0_1_n_n.rhsNonContracting by decide)]
  rfl

/-- What one grid point stores, at the entry (p, q) of its block: Σ_k max (x0[p, k] + x1[0, k], 0) · x2[k, q], from its
    4000×16 block x0 of P, the bias row x1 and the 16×1 matrix x2. -/
theorem payload_apply (x0 : Vec Ideal S4000x16 .f32) (x1 : Vec Ideal S1x16 .f32) (x2 : Vec Ideal S16x1 .f32) (p : Fin 4000) (q : Fin 1) :
    k1_pay1 (F := Ideal) x0 x1 x2 (ValueIdx.ix2 p q)
      = ∑ k : Fin 16, max (x0 (ValueIdx.ix2 p k) + x1 (ValueIdx.ix2 (0 : Fin 1) k)) (Ideal.ofBits .f32 0x00000000#32) * x2 (ValueIdx.ix2 k q) := by
  unfold k1_pay1
  refine (Ideal.matmul_constant_zero_apply dot_S4000x16_S16x1_S4000x1_1_0_0_1_n_n none _ _ _).trans ?_
  rw [← Equiv.sum_comp (ValueIdx.contrEquiv1 dot_S4000x16_S16x1_S4000x1_1_0_0_1_n_n 16 rfl rfl).symm]
  refine Finset.sum_congr rfl fun k _ => ?_
  have hk := ValueIdx.contrEquiv1_symm_val dot_S4000x16_S16x1_S4000x1_1_0_0_1_n_n 16 rfl rfl k
  have el : dot_S4000x16_S16x1_S4000x1_1_0_0_1_n_n.lhsIdx (ValueIdx.ix2 p q) ((ValueIdx.contrEquiv1 dot_S4000x16_S16x1_S4000x1_1_0_0_1_n_n 16 rfl rfl).symm k) = ValueIdx.ix2 p k := funext fun a => Fin.ext (by
    match a with
    | ⟨0, _⟩ => exact lhs_blk_0 _ _
    | ⟨1, _⟩ => exact (lhs_blk_1 _ _).trans hk)
  have er : dot_S4000x16_S16x1_S4000x1_1_0_0_1_n_n.rhsIdx (ValueIdx.ix2 p q) ((ValueIdx.contrEquiv1 dot_S4000x16_S16x1_S4000x1_1_0_0_1_n_n 16 rfl rfl).symm k) = ValueIdx.ix2 k q := funext fun a => Fin.ext (by
    match a with
    | ⟨0, _⟩ => exact (rhs_blk_0 _ _).trans hk
    | ⟨1, _⟩ => exact rhs_blk_1 _ _)
  rw [el, er]
  rw [ValueIdx.truncf_apply, ValueIdx.truncf_apply, ValueIdx.maximumf_apply, ValueIdx.addf_apply, ValueIdx.broadcast_apply, shapeCast_self, shapeCast_self, ValueIdx.broadcastTo_1b_ab_apply]
  rfl

/-! ## The whole product relu (P + b1) · W2, entry by entry -/

open Cert.ReferenceIdeal.Read in
/-- The entry i = (r, 0) of relu (P + b1) · W2 is Σ_k max (P[r, k] + b1[k], 0) · W2[k, 0]. -/
theorem hiddenMul_apply (P : FVec Ideal S100000x16 .f32) (b1 : FVec Ideal S16 .f32) (w2 : FVec Ideal S16x1 .f32) (i : S100000x1.Idx) :
    Cert.Gcn.hiddenMul (F := Ideal) P b1 w2 i
      = ∑ k : Fin 16, max (P (lidx_main_v18 i k) + b1 (ValueIdx.ix1 k)) (Ideal.ofBits .f32 0x00000000#32) * w2 (ridx_main_v18 i k) := by
  unfold Cert.Gcn.hiddenMul
  simp only [Host.dotGeneral]
  rw [Ideal.dotGeneral_apply, ← Equiv.sum_comp (ValueIdx.contrEquiv1 Cert.ReferenceIdeal.dot_S100000x16_S16x1_S100000x1_1_0_0_1_n_n 16 rfl rfl).symm]
  refine Finset.sum_congr rfl fun k _ => ?_
  have hk := ValueIdx.contrEquiv1_symm_val Cert.ReferenceIdeal.dot_S100000x16_S16x1_S100000x1_1_0_0_1_n_n 16 rfl rfl k
  have el : Cert.ReferenceIdeal.dot_S100000x16_S16x1_S100000x1_1_0_0_1_n_n.lhsIdx i ((ValueIdx.contrEquiv1 Cert.ReferenceIdeal.dot_S100000x16_S16x1_S100000x1_1_0_0_1_n_n 16 rfl rfl).symm k) = lidx_main_v18 i k := funext fun a => Fin.ext (by
    match a with
    | ⟨0, _⟩ => exact lhs_main_v18_0 _ _
    | ⟨1, _⟩ => exact (lhs_main_v18_1 _ _).trans hk)
  have er : Cert.ReferenceIdeal.dot_S100000x16_S16x1_S100000x1_1_0_0_1_n_n.rhsIdx i ((ValueIdx.contrEquiv1 Cert.ReferenceIdeal.dot_S100000x16_S16x1_S100000x1_1_0_0_1_n_n 16 rfl rfl).symm k) = ridx_main_v18 i k := funext fun a => Fin.ext (by
    match a with
    | ⟨0, _⟩ => exact (rhs_main_v18_0 _ _).trans hk
    | ⟨1, _⟩ => exact rhs_main_v18_1 _ _)
  rw [el, er]
  -- the bias reaches [N,16] through the row [1,16]; the clamp's zero is one word broadcast
  show max (P (lidx_main_v18 i k) + val_main_v15 (F := Ideal) b1 (lidx_main_v18 i k)) (val_main_call0_v0 (F := Ideal) (lidx_main_v18 i k)) * w2 (ridx_main_v18 i k) = _
  rw [val_main_v15_apply, val_main_v14_apply, val_main_call0_v0_apply, val_main_call0_cst_apply]
  have eb : idx_main_v14 (idx_main_v15 (lidx_main_v18 i k)) = ValueIdx.ix1 k := funext fun a => by
    match a with
    | ⟨0, _⟩ => rfl
  rw [eb]
  rfl

open Cert.ReferenceIdeal.Read in
/-- A point's stored entry (p, q) is the entry i of relu (P + b1) · W2 as soon as its three blocks hold, along the
    summation index, the entries of P, b1 and W2 that entry i multiplies. -/
theorem entry_eq (x0 : Vec Ideal S4000x16 .f32) (x1 : Vec Ideal S1x16 .f32) (x2 : Vec Ideal S16x1 .f32)
    (P : FVec Ideal S100000x16 .f32) (b1 : FVec Ideal S16 .f32) (w2 : FVec Ideal S16x1 .f32)
    (p : Fin 4000) (q : Fin 1) (i : S100000x1.Idx)
    (h0 : ∀ k : Fin 16, x0 (ValueIdx.ix2 p k) = P (lidx_main_v18 i k))
    (h1 : ∀ k : Fin 16, x1 (ValueIdx.ix2 (0 : Fin 1) k) = b1 (ValueIdx.ix1 k))
    (h2 : ∀ k : Fin 16, x2 (ValueIdx.ix2 k q) = w2 (ridx_main_v18 i k)) :
    k1_pay1 (F := Ideal) x0 x1 x2 (ValueIdx.ix2 p q) = Cert.Gcn.hiddenMul (F := Ideal) P b1 w2 i := by
  rw [payload_apply, hiddenMul_apply]
  exact Finset.sum_congr rfl fun k _ => by rw [h0 k, h1 k, h2 k]

/-! ## The 25 blocks -/

/-- The block indices over the grid: P's block moves with the result's along the rows and is the one block of its
    columns; the bias row and W2 stay at block (0, 0); the result's row block index is below 25, its column block 0. -/
theorem block_indices : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) < 25 ∧ win1_3.index t (1 : Fin 2) = 0 :=
  (by decide +kernel : ∀ t : Fin grid1.N, _)

/-- Every one of the 25 row blocks of the result is some point's. -/
theorem block_onto : ∀ q : Fin 25, ∃ t : Fin cfg1.N, win1_3.index t = ![q.val, 0] :=
  (by decide +kernel : ∀ q : Fin 25, ∃ t : Fin grid1.N, win1_3.index t = ![q.val, 0])

/-- What point t writes back is block t of relu (P + b1) · W2, with P and W2 the arrays as the launch finds them and
    b1 the bias whose row the launch finds. -/
theorem written_block_eq (c : Dev nD) (b1 : FVec Ideal S16 .f32) (hb : V c main_v8 = shapeCast S1x16 b1 Facts₀.shapeCasts_S16_S1x16) (t : Fin cfg1.N) :
    (dat1 (F := Ideal) V c).flushed 3 t = ((cfg1.win 3).blk t).view.read (Elt Ideal) (Cert.Gcn.hiddenMul (F := Ideal) (V c main_v7) b1 (V c main_arg4)) := by
  show (cfg1.win 3).cut (grid1.coords t) ((dat1 V c).after 3 t) = _
  rw [after1_3]
  unfold out1_3
  rw [View.canon_unit_zero zero_offsets]
  simp only [View.ld_unit_zero (S := S4000x16) zero_offsets, View.ld_unit_zero (S := S1x16) zero_offsets, View.ld_unit_zero (S := S16x1) zero_offsets]
  obtain ⟨e00, e01, e10, e11, e20, e21, e30, e31⟩ := block_indices t
  funext j
  obtain ⟨p, q, rfl⟩ : ∃ (p : Fin 4000) (q : Fin 1), j = ValueIdx.ix2 p q := ⟨j 0, j 1, ValueIdx.eq_ix2 j⟩
  show k1_pay1 (F := Ideal) (iblk1 V c 0 t) (iblk1 V c 1 t) (iblk1 V c 2 t) (ValueIdx.ix2 p q)
    = Cert.Gcn.hiddenMul (F := Ideal) (V c main_v7) b1 (V c main_arg4) (((cfg1.win 3).blk t).view.emb (ValueIdx.ix2 p q))
  refine entry_eq (iblk1 V c 0 t) (iblk1 V c 1 t) (iblk1 V c 2 t) (V c main_v7) b1 (V c main_arg4) p q (((cfg1.win 3).blk t).view.emb (ValueIdx.ix2 p q)) (fun k => ?_) (fun k => ?_) (fun k => ?_)
  · -- P's block: row (block index) · 4000 + p, column k
    unfold iblk1
    rw [View.read_apply]
    show V c main_v7 (((cfg1.win 0).blk t).view.emb (ValueIdx.ix2 p k)) = V c main_v7 _
    congr 1
    funext a
    apply Fin.ext
    match a with
    | ⟨0, _⟩ => show win1_0.index t (0 : Fin 2) * 4000 + 1 * p.val = win1_3.index t (0 : Fin 2) * 4000 + 1 * p.val; omega
    | ⟨1, _⟩ => show win1_0.index t (1 : Fin 2) * 16 + 1 * k.val = k.val; omega
  · -- the bias row: entry (0, k) of b1 laid out as 1×16 is b1[k]
    unfold iblk1
    rw [View.read_apply]
    show V c main_v8 (((cfg1.win 1).blk t).view.emb (ValueIdx.ix2 (0 : Fin 1) k)) = _
    rw [hb]
    have e : ((cfg1.win 1).blk t).view.emb (ValueIdx.ix2 (0 : Fin 1) k) = ValueIdx.ix2 (0 : Fin 1) k := by
      funext a
      apply Fin.ext
      match a with
      | ⟨0, _⟩ => show win1_1.index t (0 : Fin 2) * 1 + 1 * 0 = 0; omega
      | ⟨1, _⟩ => show win1_1.index t (1 : Fin 2) * 16 + 1 * k.val = k.val; omega
    rw [e]
    exact ValueIdx.shapeCast_a_1a_apply b1 _ 0 k
  · -- W2, whole: row k, the result's column
    unfold iblk1
    rw [View.read_apply]
    show V c main_arg4 (((cfg1.win 2).blk t).view.emb (ValueIdx.ix2 k q)) = V c main_arg4 _
    congr 1
    funext a
    apply Fin.ext
    match a with
    | ⟨0, _⟩ => show win1_2.index t (0 : Fin 2) * 16 + 1 * k.val = k.val; omega
    | ⟨1, _⟩ => show win1_2.index t (1 : Fin 2) * 1 + 1 * q.val = win1_3.index t (1 : Fin 2) * 1 + 1 * q.val; omega

/-- An index of the N×1 result is in point t's block iff each coordinate is in the block's range on its axis. -/
theorem mem_block_iff (t : Fin cfg1.N) (i : S100000x1.Idx) :
    i ∈ ((cfg1.win 3).blk t).view.set ↔ ∀ a : Fin 2, win1_3.index t a * S4000x1.size a ≤ (i a).val ∧ (i a).val < win1_3.index t a * S4000x1.size a + S4000x1.size a := by
  show i ∈ ((View.whole main_v9).slice (win1_3.rect t)).set ↔ _
  rw [View.set_slice_whole, Rect.mem_set_unit]
  exact Iff.rfl

/-- The blocks tile the result: row r lies in the block of the point whose row block index is r / 4000. -/
theorem blocks_cover (i : S100000x1.Idx) : ∃ t : Fin cfg1.N, (cfg1.win 3).flush t = true ∧ i ∈ ((cfg1.win 3).blk t).view.set := by
  have hi0 : (i 0).val < 100000 := (i 0).isLt
  have hi1 : (i 1).val < 1 := (i 1).isLt
  obtain ⟨t, ht⟩ := block_onto ⟨(i 0).val / 4000, by omega⟩
  have q0 : win1_3.index t (0 : Fin 2) = (i 0).val / 4000 := congrFun ht 0
  have q1 : win1_3.index t (1 : Fin 2) = 0 := congrFun ht 1
  refine ⟨t, flush1_3 t, ?_⟩
  rw [mem_block_iff]
  intro a
  match a with
  | ⟨0, _⟩ => show win1_3.index t (0 : Fin 2) * 4000 ≤ (i 0).val ∧ (i 0).val < win1_3.index t (0 : Fin 2) * 4000 + 4000; omega
  | ⟨1, _⟩ => show win1_3.index t (1 : Fin 2) * 1 ≤ (i 1).val ∧ (i 1).val < win1_3.index t (1 : Fin 2) * 1 + 1; omega

/-- After the second launch its output array holds relu (P + b1) · W2: P and W2 the arrays the launch finds, b1 the
    bias whose 1×16 row it finds; each of the 25 points writes its 4000 rows and the blocks tile the array. -/
theorem array_eq (c : Dev nD) (b1 : FVec Ideal S16 .f32) (hb : V c main_v8 = shapeCast S1x16 b1 Facts₀.shapeCasts_S16_S1x16) :
    (dat1 (F := Ideal) V c).arrAt 3 cfg1.N = Cert.Gcn.hiddenMul (F := Ideal) (V c main_v7) b1 (V c main_arg4) :=
  (dat1 (F := Ideal) V c).arrAt_eq_of_cover 3 (Cert.Gcn.hiddenMul (F := Ideal) (V c main_v7) b1 (V c main_arg4))
    (fun t _ => written_block_eq V c b1 hb t) blocks_cover

end Cert.Gcn.Region1

end
-- ==== Proof.Region2.lean ====
/-
  The third launch: each grid point takes 4000 entries of the aggregated column p, adds the bias and applies the
  logistic function; the 25 written blocks tile the N×1 result sigmoid (p + b2).
-/
import proofs.«429532_j50895362457878_2_alg».proof.Proof.Gen.KernelIdeal.Frame
import proofs.«429532_j50895362457878_2_alg».proof.Proof.Gen.ReferenceIdeal
import proofs.«429532_j50895362457878_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)

namespace Cert.Gcn.Region2
open Cert.KernelIdeal Cert.KernelIdeal.Gen
variable (V : (c : Dev nD) → (b : Ref sig .tc) → Buf (Elt Ideal) ((c : Thread nD τ).loc b))

/-- The block offsets (0, 0), spelt as the constant function. -/
theorem zero_offsets : (![0, 0] : Fin 2 → Nat) = fun _ => 0 := funext fun a => by fin_cases a <;> rfl

/-- The single-precision word 0x3F800000 denotes the number 1. -/
theorem one_word : Ideal.ofBits .f32 0x3F800000#32 = 1 := IdealRules.sign_bit.ideal_onePat .f32

/-- The bias laid out as 1×1 and then repeated down the N rows reads its one entry at every index. -/
theorem bias_everywhere {h1 : S1.BroadcastsInDim S1x1 ![1]} {h2 : S1x1.BroadcastsInDim S100000x1 ![0, 1]}
    (b2 : FVec Ideal S1 .f32) (i : S100000x1.Idx) :
    broadcastInDim S100000x1 ![0, 1] h2 (broadcastInDim S1x1 ![1] h1 b2) i = b2 (ValueIdx.ix1 0) := by
  refine (broadcastInDim_apply _ h2 _ i (ValueIdx.ix2 0 0) (fun a => match a with
    | ⟨0, _⟩ => by show 0 = if (1 : Nat) = 1 then 0 else (i 0).val; rw [if_pos rfl]
    | ⟨1, _⟩ => by show 0 = if (1 : Nat) = 1 then 0 else (i 1).val; rw [if_pos rfl])).trans ?_
  exact broadcastInDim_apply _ h1 b2 _ (ValueIdx.ix1 0) (fun a => match a with
    | ⟨0, _⟩ => by show 0 = if (1 : Nat) = 1 then 0 else _; rw [if_pos rfl])

/-- The host's sigmoid at an index: 1 / (1 + exp (-(p i + b2))) is the logistic function of p i + b2. -/
theorem outSigmoid_apply (p : FVec Ideal S100000x1 .f32) (b2 : FVec Ideal S1 .f32) (i : S100000x1.Idx) :
    Cert.Gcn.outSigmoid (F := Ideal) p b2 i = Ideal.logistic (p i + b2 (ValueIdx.ix1 0)) := by
  unfold Cert.Gcn.outSigmoid
  show FloatOps.hostDivf (Ideal.ofBits .f32 0x3F800000#32) (FloatOps.addf (Ideal.ofBits .f32 0x3F800000#32)
    (FloatOps.hostUnary .exp (FloatOps.hostNegf (FloatOps.addf (p i) (broadcastInDim S100000x1 ![0, 1] _ (broadcastInDim S1x1 ![1] _ b2) i))))) = _
  rw [bias_everywhere, one_word]
  rfl

/-- What a grid point stores, at an entry: the logistic function of the block's entry plus the bias block's one entry. -/
theorem payload_apply (x0 : Vec Ideal S4000x1 .f32) (x1 : Vec Ideal S1x1 .f32) (j : S4000x1.Idx) :
    k2_pay1 x0 x1 j = Ideal.logistic (x0 j + x1 (ValueIdx.ix2 0 0)) := by
  unfold k2_pay1
  show Ideal.logistic (shapeCast S4000x1 x0 _ j + broadcastTo S4000x1 (shapeCast S1x1 x1 _) _ j) = _
  rw [shapeCast_self, shapeCast_self, broadcastTo_apply x1 _ j (ValueIdx.ix2 0 0) (fun a => match a with
    | ⟨0, _⟩ => by show 0 = if (1 : Nat) = 1 then 0 else _; rw [if_pos rfl]
    | ⟨1, _⟩ => by show 0 = if (1 : Nat) = 1 then 0 else _; rw [if_pos rfl])]

/-- At every grid point the block of p read is the block of the result written, the bias block is block (0, 0), and
    the written block's row index is below 25 with column index 0. -/
theorem block_indices : ∀ t : Fin cfg2.N, win2_0.index t (0 : Fin 2) = win2_2.index t (0 : Fin 2)
    ∧ win2_0.index t (1 : Fin 2) = win2_2.index t (1 : Fin 2)
    ∧ win2_1.index t (0 : Fin 2) = 0 ∧ win2_1.index t (1 : Fin 2) = 0
    ∧ win2_2.index t (0 : Fin 2) < 25 ∧ win2_2.index t (1 : Fin 2) = 0 :=
  (by decide +kernel : ∀ t : Fin grid2.N, _)

/-- Each of the 25 row blocks of the result is some grid point's. -/
theorem block_onto : ∀ q : Fin 25, ∃ t : Fin cfg2.N, win2_2.index t = ![q.val, 0] :=
  (by decide +kernel : ∀ q : Fin 25, ∃ t : Fin grid2.N, win2_2.index t = ![q.val, 0])

/-- A 1×1 array that is the bias reshaped holds the bias's one entry. -/
theorem bias_entry (x : FVec Ideal S1x1 .f32) (b2 : FVec Ideal S1 .f32) {h : S1.ShapeCasts S1x1}
    (hx : x = shapeCast S1x1 b2 h) (k : S1x1.Idx) : x k = b2 (ValueIdx.ix1 0) := by
  subst hx
  refine shapeCast_apply b2 h k (ValueIdx.ix1 0) ?_
  rw [Shape.rowMajor_val_one, Shape.rowMajor_val_two]
  have h0 : (k 0).val < 1 := (k 0).isLt
  have h1 : (k 1).val < 1 := (k 1).isLt
  show 0 = (k 0).val * 1 + (k 1).val
  omega

/-- One stored entry is the host's sigmoid at the array index i, once the block's entry is p i and the bias block's entry
    is the bias. -/
theorem entry_eq (x0 : Vec Ideal S4000x1 .f32) (x1 : Vec Ideal S1x1 .f32) (p : FVec Ideal S100000x1 .f32)
    (b2 : FVec Ideal S1 .f32) (j : S4000x1.Idx) (i : S100000x1.Idx) (h0 : x0 j = p i)
    (h1 : x1 (ValueIdx.ix2 0 0) = b2 (ValueIdx.ix1 0)) :
    k2_pay1 x0 x1 j = Cert.Gcn.outSigmoid (F := Ideal) p b2 i := by
  rw [payload_apply, outSigmoid_apply, h0, h1]

/-- What grid point t writes back is block t of sigmoid (p + b2): row 4000·t + r of p goes to row 4000·t + r of the result. -/
theorem written_block (c : Dev nD) (b2 : FVec Ideal S1 .f32) (hb : V c main_v16 = shapeCast S1x1 b2 Facts₀.shapeCasts_S1_S1x1) (t : Fin cfg2.N) :
    (dat2 (F := Ideal) V c).flushed 2 t = ((cfg2.win 2).blk t).view.read (Elt Ideal) (Cert.Gcn.outSigmoid (F := Ideal) (V c main_v15) b2) := by
  show (cfg2.win 2).cut (grid2.coords t) ((dat2 V c).after 2 t) = _
  rw [after2_2]
  unfold out2_2
  rw [View.canon_unit_zero zero_offsets]
  simp only [View.ld_unit_zero (S := S4000x1) zero_offsets, View.ld_unit_zero (S := S1x1) zero_offsets]
  obtain ⟨e0, e1, e2, e3, e4, e5⟩ := block_indices t
  funext j
  show k2_pay1 (iblk2 V c 0 t) (iblk2 V c 1 t) j
    = Cert.Gcn.outSigmoid (F := Ideal) (V c main_v15) b2 (((cfg2.win 2).blk t).view.emb j)
  refine entry_eq (iblk2 V c 0 t) (iblk2 V c 1 t) (V c main_v15) b2 j _ ?_ ?_
  · show V c main_v15 (((cfg2.win 0).blk t).view.emb j) = V c main_v15 (((cfg2.win 2).blk t).view.emb j)
    refine congrArg (V c main_v15) (funext fun a => Fin.ext ?_)
    match a with
    | ⟨0, _⟩ => show win2_0.index t (0 : Fin 2) * 4000 + 1 * (j 0).val = win2_2.index t (0 : Fin 2) * 4000 + 1 * (j 0).val; omega
    | ⟨1, _⟩ => show win2_0.index t (1 : Fin 2) * 1 + 1 * (j 1).val = win2_2.index t (1 : Fin 2) * 1 + 1 * (j 1).val; omega
  · show V c main_v16 (((cfg2.win 1).blk t).view.emb (ValueIdx.ix2 0 0)) = b2 (ValueIdx.ix1 0)
    exact bias_entry (V c main_v16) b2 hb _

/-- An index of the result lies in grid point t's block iff each coordinate lies in the block's range on its axis. -/
theorem mem_block (t : Fin cfg2.N) (i : S100000x1.Idx) :
    i ∈ ((cfg2.win 2).blk t).view.set ↔ ∀ a : Fin 2, win2_2.index t a * S4000x1.size a ≤ (i a).val ∧ (i a).val < win2_2.index t a * S4000x1.size a + S4000x1.size a := by
  show i ∈ ((View.whole main_v17).slice (win2_2.rect t)).set ↔ _
  rw [View.set_slice_whole, Rect.mem_set_unit]
  exact Iff.rfl

/-- The 25 blocks of 4000 rows tile the N rows: row r lies in the block of the point whose block index is r / 4000. -/
theorem rows_covered (i : S100000x1.Idx) : ∃ t : Fin cfg2.N, (cfg2.win 2).flush t = true ∧ i ∈ ((cfg2.win 2).blk t).view.set := by
  have hi0 : (i 0).val < 100000 := (i 0).isLt
  have hi1 : (i 1).val < 1 := (i 1).isLt
  obtain ⟨t, ht⟩ := block_onto ⟨(i 0).val / 4000, by omega⟩
  have q0 : win2_2.index t (0 : Fin 2) = (i 0).val / 4000 := congrFun ht 0
  have q1 : win2_2.index t (1 : Fin 2) = 0 := congrFun ht 1
  refine ⟨t, flush2_2 t, ?_⟩
  rw [mem_block]
  intro a
  match a with
  | ⟨0, _⟩ => show win2_2.index t (0 : Fin 2) * 4000 ≤ (i 0).val ∧ (i 0).val < win2_2.index t (0 : Fin 2) * 4000 + 4000; omega
  | ⟨1, _⟩ => show win2_2.index t (1 : Fin 2) * 1 ≤ (i 1).val ∧ (i 1).val < win2_2.index t (1 : Fin 2) * 1 + 1; omega

/-- The third launch's result array is sigmoid (p + b2) = 1 / (1 + exp (-(p + b2))), entry by entry, where p is the array
    it reads in blocks of 4000 rows and the 1×1 array it reads whole is the bias b2 reshaped. -/
theorem array_eq (c : Dev nD) (b2 : FVec Ideal S1 .f32) (hb : V c main_v16 = shapeCast S1x1 b2 Facts₀.shapeCasts_S1_S1x1) :
    (dat2 (F := Ideal) V c).arrAt 2 cfg2.N = Cert.Gcn.outSigmoid (F := Ideal) (V c main_v15) b2 :=
  (dat2 (F := Ideal) V c).arrAt_eq_of_cover 2 (Cert.Gcn.outSigmoid (F := Ideal) (V c main_v15) b2)
    (fun t _ => written_block V c b2 hb t) rows_covered

end Cert.Gcn.Region2

end
-- ==== Proof.KernelValue.lean ====
/-
  The kernel program's result, boundary by boundary. Launch 0 leaves X · W1; the first stretch aggregates its rows
  over the edges and lays the first bias out as a row; launch 1 leaves relu (· + b1) · W2; the second stretch
  aggregates that column and lays out the second bias; launch 2 leaves sigmoid (· + b2). Every argument array is
  still the launch contents where it is read. When every column index lies in [-N, N) the range-tested takes are
  the plain gathers, and the composite is the reference network of the argument arrays.
-/
import proofs.«429532_j50895362457878_2_alg».proof.Proof.KernelRun
import proofs.«429532_j50895362457878_2_alg».proof.Proof.HostSide
import proofs.«429532_j50895362457878_2_alg».proof.Proof.Region0
import proofs.«429532_j50895362457878_2_alg».proof.Proof.Region1
import proofs.«429532_j50895362457878_2_alg».proof.Proof.Region2

noncomputable section

open Idealize.ShloMosaic Idealize.ShloMosaic.TcCoe Idealize.SL.Sem

namespace Cert.Gcn.Kernel
open Cert.KernelIdeal Cert.KernelIdeal.Gen

variable (m : (ℓ : Loc nD τ sig) → Buf (Elt Ideal) ℓ) (ρ : Dev nD → PrngReg)

/-! ## The argument arrays at the boundaries where they are read -/

theorem W1_arg1 (c : Dev nD) : W1 m ρ c (Proc.devRef .tc main_arg1) = (m ((c : Thread nD τ).loc main_arg1)) := W1_of_ne m ρ c main_arg1 (by decide)
theorem W1_arg3 (c : Dev nD) : W1 m ρ c (Proc.devRef .tc main_arg3) = (m ((c : Thread nD τ).loc main_arg3)) := W1_of_ne m ρ c main_arg3 (by decide)
theorem W1_arg4 (c : Dev nD) : W1 m ρ c (Proc.devRef .tc main_arg4) = (m ((c : Thread nD τ).loc main_arg4)) := W1_of_ne m ρ c main_arg4 (by decide)
theorem W1_arg5 (c : Dev nD) : W1 m ρ c (Proc.devRef .tc main_arg5) = (m ((c : Thread nD τ).loc main_arg5)) := W1_of_ne m ρ c main_arg5 (by decide)
theorem W1_arg6 (c : Dev nD) : W1 m ρ c (Proc.devRef .tc main_arg6) = (m ((c : Thread nD τ).loc main_arg6)) := W1_of_ne m ρ c main_arg6 (by decide)
theorem W1_arg7 (c : Dev nD) : W1 m ρ c (Proc.devRef .tc main_arg7) = (m ((c : Thread nD τ).loc main_arg7)) := W1_of_ne m ρ c main_arg7 (by decide)

theorem W2_arg1 (c : Dev nD) : W2 m ρ c (Proc.devRef .tc main_arg1) = (m ((c : Thread nD τ).loc main_arg1)) := (Host.keep_hostOps1_arg1 (W1 m ρ c)).trans (W1_arg1 m ρ c)
theorem W2_arg3 (c : Dev nD) : W2 m ρ c (Proc.devRef .tc main_arg3) = (m ((c : Thread nD τ).loc main_arg3)) := (Host.keep_hostOps1_arg3 (W1 m ρ c)).trans (W1_arg3 m ρ c)
theorem W2_arg4 (c : Dev nD) : W2 m ρ c (Proc.devRef .tc main_arg4) = (m ((c : Thread nD τ).loc main_arg4)) := (Host.keep_hostOps1_arg4 (W1 m ρ c)).trans (W1_arg4 m ρ c)
theorem W2_arg5 (c : Dev nD) : W2 m ρ c (Proc.devRef .tc main_arg5) = (m ((c : Thread nD τ).loc main_arg5)) := (Host.keep_hostOps1_arg5 (W1 m ρ c)).trans (W1_arg5 m ρ c)
theorem W2_arg6 (c : Dev nD) : W2 m ρ c (Proc.devRef .tc main_arg6) = (m ((c : Thread nD τ).loc main_arg6)) := (Host.keep_hostOps1_arg6 (W1 m ρ c)).trans (W1_arg6 m ρ c)
theorem W2_arg7 (c : Dev nD) : W2 m ρ c (Proc.devRef .tc main_arg7) = (m ((c : Thread nD τ).loc main_arg7)) := (Host.keep_hostOps1_arg7 (W1 m ρ c)).trans (W1_arg7 m ρ c)

theorem W3_arg1 (c : Dev nD) : W3 m ρ c (Proc.devRef .tc main_arg1) = (m ((c : Thread nD τ).loc main_arg1)) := (Host.keep_hostOps1_1_arg1 (W2 m ρ c)).trans (W2_arg1 m ρ c)
theorem W3_arg4 (c : Dev nD) : W3 m ρ c (Proc.devRef .tc main_arg4) = (m ((c : Thread nD τ).loc main_arg4)) := (Host.keep_hostOps1_1_arg4 (W2 m ρ c)).trans (W2_arg4 m ρ c)
theorem W3_arg5 (c : Dev nD) : W3 m ρ c (Proc.devRef .tc main_arg5) = (m ((c : Thread nD τ).loc main_arg5)) := (Host.keep_hostOps1_1_arg5 (W2 m ρ c)).trans (W2_arg5 m ρ c)
theorem W3_arg6 (c : Dev nD) : W3 m ρ c (Proc.devRef .tc main_arg6) = (m ((c : Thread nD τ).loc main_arg6)) := (Host.keep_hostOps1_1_arg6 (W2 m ρ c)).trans (W2_arg6 m ρ c)
theorem W3_arg7 (c : Dev nD) : W3 m ρ c (Proc.devRef .tc main_arg7) = (m ((c : Thread nD τ).loc main_arg7)) := (Host.keep_hostOps1_1_arg7 (W2 m ρ c)).trans (W2_arg7 m ρ c)

theorem W4_arg1 (c : Dev nD) : W4 m ρ c (Proc.devRef .tc main_arg1) = (m ((c : Thread nD τ).loc main_arg1)) := (W4_of_ne m ρ c main_arg1 (by decide)).trans (W3_arg1 m ρ c)
theorem W4_arg5 (c : Dev nD) : W4 m ρ c (Proc.devRef .tc main_arg5) = (m ((c : Thread nD τ).loc main_arg5)) := (W4_of_ne m ρ c main_arg5 (by decide)).trans (W3_arg5 m ρ c)
theorem W4_arg6 (c : Dev nD) : W4 m ρ c (Proc.devRef .tc main_arg6) = (m ((c : Thread nD τ).loc main_arg6)) := (W4_of_ne m ρ c main_arg6 (by decide)).trans (W3_arg6 m ρ c)
theorem W4_arg7 (c : Dev nD) : W4 m ρ c (Proc.devRef .tc main_arg7) = (m ((c : Thread nD τ).loc main_arg7)) := (W4_of_ne m ρ c main_arg7 (by decide)).trans (W3_arg7 m ρ c)

theorem W5_arg1 (c : Dev nD) : W5 m ρ c (Proc.devRef .tc main_arg1) = (m ((c : Thread nD τ).loc main_arg1)) := (Host.keep_hostOps2_arg1 (W4 m ρ c)).trans (W4_arg1 m ρ c)
theorem W5_arg5 (c : Dev nD) : W5 m ρ c (Proc.devRef .tc main_arg5) = (m ((c : Thread nD τ).loc main_arg5)) := (Host.keep_hostOps2_arg5 (W4 m ρ c)).trans (W4_arg5 m ρ c)
theorem W5_arg6 (c : Dev nD) : W5 m ρ c (Proc.devRef .tc main_arg6) = (m ((c : Thread nD τ).loc main_arg6)) := (Host.keep_hostOps2_arg6 (W4 m ρ c)).trans (W4_arg6 m ρ c)

/-! ## The computed buffers -/

/-- After launch 0 its output holds X · W1. -/
theorem W1_prod (c : Dev nD) :
    W1 m ρ c (Proc.devRef .tc main_v0) = Cert.Gcn.featMul (F := Ideal) (m ((c : Thread nD τ).loc main_arg0)) (m ((c : Thread nD τ).loc main_arg2)) :=
  (W1_arr m ρ c 2).trans (Cert.Gcn.Region0.array_eq (V0 m ρ) c)

/-- The rows taken from X · W1. -/
theorem W2_take (c : Dev nD) :
    W2 m ρ c (Proc.devRef .tc main_v1)
      = Cert.Gcn.Take.takeFill16 (F := Ideal) (Cert.Gcn.featMul (F := Ideal) (m ((c : Thread nD τ).loc main_arg0)) (m ((c : Thread nD τ).loc main_arg2))) (m ((c : Thread nD τ).loc main_arg7)) := by
  refine (Host.take16_of (F := Ideal) (W1 m ρ c)).trans ?_
  rw [W1_prod m ρ c, W1_arg7 m ρ c]

/-- The aggregated features as launch 1 finds them. -/
theorem W3_agg (c : Dev nD) :
    W3 m ρ c (Proc.devRef .tc main_v7)
      = Cert.Gcn.scatter16 (F := Ideal) (m ((c : Thread nD τ).loc main_arg1)) (m ((c : Thread nD τ).loc main_arg6))
          (Cert.Gcn.Take.takeFill16 (F := Ideal) (Cert.Gcn.featMul (F := Ideal) (m ((c : Thread nD τ).loc main_arg0)) (m ((c : Thread nD τ).loc main_arg2))) (m ((c : Thread nD τ).loc main_arg7))) := by
  refine (Host.agg16_of (F := Ideal) (W2 m ρ c)).trans ?_
  rw [W2_arg1 m ρ c, W2_arg6 m ρ c, W2_take m ρ c]

/-- The first bias as launch 1 finds it: a row. -/
theorem W3_bias (c : Dev nD) :
    W3 m ρ c (Proc.devRef .tc main_v8) = shapeCast S1x16 (m ((c : Thread nD τ).loc main_arg3)) Facts₀.shapeCasts_S16_S1x16 := by
  refine (Host.bias16_of (F := Ideal) (W2 m ρ c)).trans ?_
  rw [W2_arg3 m ρ c]

/-- After launch 1 its output holds relu (P + b1) · W2 of the aggregated features P. -/
theorem W4_prod (c : Dev nD) :
    W4 m ρ c (Proc.devRef .tc main_v9)
      = Cert.Gcn.hiddenMul (F := Ideal)
          (Cert.Gcn.scatter16 (F := Ideal) (m ((c : Thread nD τ).loc main_arg1)) (m ((c : Thread nD τ).loc main_arg6))
            (Cert.Gcn.Take.takeFill16 (F := Ideal) (Cert.Gcn.featMul (F := Ideal) (m ((c : Thread nD τ).loc main_arg0)) (m ((c : Thread nD τ).loc main_arg2))) (m ((c : Thread nD τ).loc main_arg7))))
          (m ((c : Thread nD τ).loc main_arg3)) (m ((c : Thread nD τ).loc main_arg4)) := by
  refine (W4_arr m ρ c 3).trans ((Cert.Gcn.Region1.array_eq (V3 m ρ) c (m ((c : Thread nD τ).loc main_arg3)) (W3_bias m ρ c)).trans ?_)
  show Cert.Gcn.hiddenMul (F := Ideal) (W3 m ρ c (Proc.devRef .tc main_v7)) _ (W3 m ρ c (Proc.devRef .tc main_arg4)) = _
  rw [W3_agg m ρ c, W3_arg4 m ρ c]

/-- The entries taken from that column. -/
theorem W5_take (c : Dev nD) :
    W5 m ρ c (Proc.devRef .tc main_v10)
      = Cert.Gcn.Take.takeFill1 (F := Ideal) (W4 m ρ c (Proc.devRef .tc main_v9)) (m ((c : Thread nD τ).loc main_arg7)) := by
  refine (Host.take1_of (F := Ideal) (W4 m ρ c)).trans ?_
  rw [W4_arg7 m ρ c]

/-- The aggregated column as launch 2 finds it. -/
theorem W6_agg (c : Dev nD) :
    W6 m ρ c (Proc.devRef .tc main_v15)
      = Cert.Gcn.scatter1 (F := Ideal) (m ((c : Thread nD τ).loc main_arg1)) (m ((c : Thread nD τ).loc main_arg6))
          (Cert.Gcn.Take.takeFill1 (F := Ideal) (W4 m ρ c (Proc.devRef .tc main_v9)) (m ((c : Thread nD τ).loc main_arg7))) := by
  refine (Host.agg1_of (F := Ideal) (W5 m ρ c)).trans ?_
  rw [W5_arg1 m ρ c, W5_arg6 m ρ c, W5_take m ρ c]

/-- The second bias as launch 2 finds it. -/
theorem W6_bias (c : Dev nD) :
    W6 m ρ c (Proc.devRef .tc main_v16) = shapeCast S1x1 (m ((c : Thread nD τ).loc main_arg5)) Facts₀.shapeCasts_S1_S1x1 := by
  refine (Host.bias1_of (F := Ideal) (W5 m ρ c)).trans ?_
  rw [W5_arg5 m ρ c]

/-- After launch 2 the result buffer holds sigmoid (p + b2) of the aggregated column p. -/
theorem W7_out (c : Dev nD) :
    W7 m ρ c (Proc.devRef .tc main_v17)
      = Cert.Gcn.outSigmoid (F := Ideal)
          (Cert.Gcn.scatter1 (F := Ideal) (m ((c : Thread nD τ).loc main_arg1)) (m ((c : Thread nD τ).loc main_arg6))
            (Cert.Gcn.Take.takeFill1 (F := Ideal) (W4 m ρ c (Proc.devRef .tc main_v9)) (m ((c : Thread nD τ).loc main_arg7))))
          (m ((c : Thread nD τ).loc main_arg5)) := by
  refine (W7_arr m ρ c 2).trans ((Cert.Gcn.Region2.array_eq (V6 m ρ) c (m ((c : Thread nD τ).loc main_arg5)) (W6_bias m ρ c)).trans ?_)
  show Cert.Gcn.outSigmoid (F := Ideal) (W6 m ρ c (Proc.devRef .tc main_v15)) _ = _
  rw [W6_agg m ρ c]

/-! ## With the column indices in range: the reference network -/

/-- The result buffer holds the reference network of the argument arrays. -/
theorem result (c : Dev nD) (hc : Cert.Gcn.ColsInRange (m ((c : Thread nD τ).loc main_arg7))) :
    W7 m ρ c (Proc.devRef .tc main_v17)
      = Cert.Gcn.network (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [W7_out m ρ c, W4_prod m ρ c, Cert.Gcn.Take.takeFill1_eq _ hc, Cert.Gcn.Take.takeFill16_eq _ hc]
  rfl

/-- The kernel program's run, read: the result buffer at the reference network of the arguments, the arguments
    unchanged. -/
theorem run (hc : ∀ c : Dev nD, Cert.Gcn.ColsInRange (m ((c : Thread nD τ).loc main_arg7))) :
    θ_run defs (onTc (τ := τ) (main (F := Ideal))) ⟨m, fun _ => 0, ρ⟩ (fun r => ∀ c : Dev nD,
      r.2.mem ((c.tc : Thread nD τ).loc main_v17)
          = Cert.Gcn.network (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result m ρ c (hc c)), (h c).2⟩)
    (Cert.KernelIdeal.Run.run_main (F := Ideal) m ρ)

end Cert.Gcn.Kernel

end
-- ==== Proof.RefSide.lean ====
/-
  The reference program's run, re-posted: its result buffer ends at the network of `Spec` applied to the argument
  arrays (the generated run's composed term is that network, stage for stage), the arguments unchanged.
-/
import proofs.«429532_j50895362457878_2_alg».proof.Proof.Gen.ReferenceIdeal.Run
import proofs.«429532_j50895362457878_2_alg».proof.Proof.Spec

noncomputable section

open Idealize.ShloMosaic Idealize.ShloMosaic.TcCoe Idealize.SL.Sem

namespace Cert.Gcn.Ref
open Cert.ReferenceIdeal

variable {F : FTy → Type} [FloatOps F]

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v39) =
          Cert.Gcn.network (F := F) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans rfl, (h c).2⟩) (Cert.ReferenceIdeal.Value.run (F := F) m ρ)

end Cert.Gcn.Ref

end
-- ==== Proof.Pre.lean ====
/-
  The precondition's last two conjuncts say, edge by edge, -N ≤ c_e (signed) and c_e < N (signed): read off the
  printed predicate, they give every column index in [-N, N).
-/
import proofs.«429532_j50895362457878_2_alg».proof.Defs
import proofs.«429532_j50895362457878_2_alg».proof.Proof.Gen.KernelIdeal
import proofs.«429532_j50895362457878_2_alg».proof.Proof.Gen.Pre_finite_inputs
import proofs.«429532_j50895362457878_2_alg».proof.Proof.Spec
import Idealize.ShloMosaic.Lib.ReduceAll
import Idealize.ShloMosaic.Lib.ValueIdx

noncomputable section

open Idealize.ShloMosaic Idealize.ShloMosaic.TcCoe Idealize.SL.Sem

namespace Cert.Gcn.Pre
open Cert.KernelIdeal

/-- The precondition's two integer conjuncts, read at edge e: -N ≤ c_e and c_e < N as signed words. -/
theorem cols_of_pre (m : (ℓ : Loc nD τ sig) → Buf (Elt Ideal) ℓ) (h : Cert.Pre_KernelIdeal m) (c : Dev nD) :
    Cert.Gcn.ColsInRange (m ((c.tc : Thread nD τ).loc main_arg7)) := by
  intro e
  have h0 := congrFun (h c) ValueIdx.ix0
  dsimp only [Cert.Pre_finite_inputs.fn, Cert.Pre_finite_inputs.fn_part1, Cert.Pre_finite_inputs.fn_part2] at h0
  obtain ⟨h1, hlt⟩ := IntOp.andi_eq_one.1 h0
  obtain ⟨_, hge⟩ := IntOp.andi_eq_one.1 h1
  haveI : Subsingleton Cert.Pre_finite_inputs.S_.Idx := ⟨fun a b => funext fun d => d.elim0⟩
  have ge := Host.reduce_andi_all _ _ _ _ _ hge e
  have lt := Host.reduce_andi_all _ _ _ _ _ hlt e
  have hN : (4294867296#32 : BitVec 32).toInt = -100000 := by decide
  have hP : (100000#32 : BitVec 32).toInt = 100000 := by decide
  refine ⟨?_, ?_⟩
  · have := IntOp.cmpi_sge.1 ge
    rw [← hN]; exact this
  · have := IntOp.cmpi_slt.1 lt
    rw [← hP]; exact this

end Cert.Gcn.Pre

end
-- ==== Proof.lean ====
/-
  A two-layer graph convolution, kernel against reference, over the extended reals.

  Both programs compute y = sigmoid (A · (relu (A · (X · W1) + b1) · W2) + b2), where (A · D)[i, :] is the sum over the
  edges e with row index i of the edge weight times row c_e of D. The kernel program forms X · W1, relu (· + b1) · W2
  and sigmoid (· + b2) in three launches, each over 25 blocks of 4000 rows, and the aggregation A · in host operations
  between them; the reference forms everything in host operations. The two differ in one place only: gathering row
  c_e, the kernel program tests the (once wrapped) index against [0, N - 1] and substitutes a fill value where the
  test fails, while the reference lets the gather clamp. Under the precondition every column index lies in
  [-N, N), the range in which indexing a length-N axis is defined, so the test always passes and the fill value is
  never used. Then each launch's blocks tile its output with the matching host stage of the same operands (a block
  product summed over the contraction index is the host product's entry; the kernel's logistic is
  1 / (1 + exp (-x))), the gather and the scatter-add are applied to equal operands, and the two results are one term.
  The ideal pass rewrote nothing, so the idealized kernel is the kernel's own text.
-/
import proofs.«429532_j50895362457878_2_alg».proof.Defs
import proofs.«429532_j50895362457878_2_alg».proof.Proof.Gen.Kernel
import proofs.«429532_j50895362457878_2_alg».proof.Proof.Gen.Kernel.Skeleton
import proofs.«429532_j50895362457878_2_alg».proof.Proof.Gen.Kernel.Launch
import proofs.«429532_j50895362457878_2_alg».proof.Proof.Gen.Kernel.Points
import proofs.«429532_j50895362457878_2_alg».proof.Proof.Gen.Kernel.Frame
import proofs.«429532_j50895362457878_2_alg».proof.Proof.Gen.KernelIdeal
import proofs.«429532_j50895362457878_2_alg».proof.Proof.Gen.KernelIdeal.Skeleton
import proofs.«429532_j50895362457878_2_alg».proof.Proof.Gen.KernelIdeal.Launch
import proofs.«429532_j50895362457878_2_alg».proof.Proof.Gen.KernelIdeal.Points
import proofs.«429532_j50895362457878_2_alg».proof.Proof.Gen.KernelIdeal.Frame
import proofs.«429532_j50895362457878_2_alg».proof.Proof.Gen.ReferenceIdeal
import proofs.«429532_j50895362457878_2_alg».proof.Proof.Gen.ReferenceIdeal.Run
import proofs.«429532_j50895362457878_2_alg».proof.Proof.Gen.ReferenceIdeal.Read
import proofs.«429532_j50895362457878_2_alg».proof.Proof.Gen.Pre_finite_inputs
import proofs.«429532_j50895362457878_2_alg».proof.Proof.KernelValue
import proofs.«429532_j50895362457878_2_alg».proof.Proof.RefSide
import proofs.«429532_j50895362457878_2_alg».proof.Proof.Pre
import Idealize.ShloMosaic.Adequacy
import Idealize.ShloMosaic.Init

noncomputable section

namespace Cert.Proof

open Idealize.ShloMosaic Idealize.ShloMosaic.TcCoe Idealize.SL.Sem

/-- The kernel program runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as they were: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments, with every column index in [-N, N), both programs end with the
    reference network of the argument arrays in their result buffers. -/
theorem algebraic : Cert.algebraic_KernelIdeal_ReferenceIdeal := by
  intro m ρ m' ρ' hpre hagree
  refine ⟨_, Cert.Gcn.Kernel.run m ρ (fun c => Cert.Gcn.Pre.cols_of_pre m hpre c), ?_⟩
  refine (θ_run Cert.ReferenceIdeal.defs _ _).mono (fun _ h c => ⟨(h c).1.trans ?_, (h c).2⟩)
    (Cert.Gcn.Ref.run (F := Ideal) m' ρ')
  obtain ⟨e0, e1, e2, e3, e4, e5, e6, e7⟩ := hagree c
  rw [e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
